-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S512x4096 : Shape := ⟨2, ![512, 4096]⟩
abbrev S32x512 : Shape := ⟨2, ![32, 512]⟩
abbrev S32x4096 : Shape := ⟨2, ![32, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S32x4096 : S_.BroadcastsInDim S32x4096 (![] : Fin 0 → Fin S32x4096.rank)
  reducesTo_S32x4096_S_d0_1 : S32x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : IVec S512x4096 32) (main_arg2 : IVec S32x512 32) (main_arg3 : FVec F S32x4096 .f32) (main_arg4 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S32x4096 .f32 := Host.absf main_arg3
  let main_cst_0 : FVec F S_ .f32 := constant S_ .f32 0x7F800000#32
  let main_v5 : FVec F S32x4096 .f32 := broadcastInDim S32x4096 ![] bcast_S_S32x4096 main_cst_0
  let main_v6 : IVec S32x4096 1 := cmpf .olt main_v4 main_v5
  let main_c_1 : IVec S_ 1 := constantI S_ 1 1#1
  let main_v7 : IVec S_ 1 := (fun x v => Host.reduce IntOp.andi x v reducesTo_S32x4096_S_d0_1 h_S_) main_v6 main_c_1
  let main_v8 : IVec S_ 1 := andi main_v3 main_v7
  let main_v9 : FVec F S4096 .f32 := Host.absf main_arg4
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S512x4096 : Shape := ⟨2, ![512, 4096]⟩
abbrev S32x512 : Shape := ⟨2, ![32, 512]⟩
abbrev S32x4096 : Shape := ⟨2, ![32, 4096]⟩
abbrev S4096 : Shape := ⟨1, ![4096]⟩
abbrev S1x8 : Shape := ⟨2, ![1, 8]⟩
abbrev S_ : Shape := ⟨0, ![]⟩
abbrev S32x512x1 : Shape := ⟨3, ![32, 512, 1]⟩
abbrev S1x1x8 : Shape := ⟨3, ![1, 1, 8]⟩
abbrev S32x512x8 : Shape := ⟨3, ![32, 512, 8]⟩
abbrev S1x4096 : Shape := ⟨2, ![1, 4096]⟩
abbrev S512x1024 : Shape := ⟨2, ![512, 1024]⟩
abbrev S128x1024 : Shape := ⟨2, ![128, 1024]⟩
abbrev S8x1024 : Shape := ⟨2, ![8, 1024]⟩
abbrev S1x1024 : Shape := ⟨2, ![1, 1024]⟩
abbrev S1x8x1 : Shape := ⟨3, ![1, 8, 1]⟩
abbrev S128x1x1024 : Shape := ⟨3, ![128, 1, 1024]⟩
abbrev S128x8x1024 : Shape := ⟨3, ![128, 8, 1024]⟩
abbrev S1024x1024 : Shape := ⟨2, ![1024, 1024]⟩
abbrev S8x1x1024 : Shape := ⟨3, ![8, 1, 1024]⟩
abbrev S8x128x1024 : Shape := ⟨3, ![8, 128, 1024]⟩

abbrev nBuf : Space → Nat
  | .hbm => 25
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S512x4096, .i32⟩
  | .hbm, ⟨2, _⟩ => ⟨S32x512, .i32⟩
  | .hbm, ⟨3, _⟩ => ⟨S32x4096, .f32⟩
  | .hbm, ⟨4, _⟩ => ⟨S4096, .f32⟩
  | .hbm, ⟨5, _⟩ => ⟨S1x8, .i32⟩
  | .hbm, ⟨6, _⟩ => ⟨S_, .i32⟩
  | .hbm, ⟨7, _⟩ => ⟨S1x8, .i32⟩
  | .hbm, ⟨8, _⟩ => ⟨S1x8, .i32⟩
  | .hbm, ⟨9, _⟩ => ⟨S32x512x1, .i32⟩
  | .hbm, ⟨10, _⟩ => ⟨S1x1x8, .i32⟩
  | .hbm, ⟨11, _⟩ => ⟨S32x512x8, .i32⟩
  | .hbm, ⟨12, _⟩ => ⟨S32x512x8, .i32⟩
  | .hbm, ⟨13, _⟩ => ⟨S32x512x8, .i32⟩
  | .hbm, ⟨14, _⟩ => ⟨S_, .i32⟩
  | .hbm, ⟨15, _⟩ => ⟨S32x512x8, .i32⟩
  | .hbm, ⟨16, _⟩ => ⟨S32x512x8, .i32⟩
  | .hbm, ⟨17, _⟩ => ⟨S32x4096, .i32⟩
  | .hbm, ⟨18, _⟩ => ⟨S32x4096, .f32⟩
  | .hbm, ⟨19, _⟩ => ⟨S_, .f32⟩
  | .hbm, ⟨20, _⟩ => ⟨S32x4096, .f32⟩
  | .hbm, ⟨21, _⟩ => ⟨S32x4096, .f32⟩
  | .hbm, ⟨22, _⟩ => ⟨S32x4096, .f32⟩
  | .hbm, ⟨23, _⟩ => ⟨S1x4096, .f32⟩
  | .hbm, ⟨24, _⟩ => ⟨S8192x4096, .f32⟩
  | .local _ .vmem, ⟨0, _⟩ => ⟨S512x1024, .f32⟩
  | .local _ .vmem, ⟨1, _⟩ => ⟨S512x1024, .f32⟩
  | .local _ .vmem, ⟨2, _⟩ => ⟨S128x1024, .i32⟩
  | .local _ .vmem, ⟨3, _⟩ => ⟨S128x1024, .i32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 4, 4], ![false, false, false]⟩

def k0_cond2 (i : grid0.Coords) : BitVec 1 :=
  let arg2 : BitVec 32 := BitVec.ofNat 32 (i 2).val
  let c3_i32 : BitVec 32 := 3#32
  let v37 : BitVec 1 := Scalar.cmpi .eq arg2 c3_i32
  let v38 : BitVec 32 := Scalar.extui v37
  let c0_i32_12 : BitVec 32 := 0#32
  let v39 : BitVec 1 := Scalar.cmpi .ne v38 c0_i32_12
  v39

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  bcast_S_S1x8 : S_.BroadcastsInDim S1x8 (![] : Fin 0 → Fin S1x8.rank)
  bcast_S32x512_S32x512x1_0_1 : S32x512.BroadcastsInDim S32x512x1 (![0, 1] : Fin 2 → Fin S32x512x1.rank)
  bcast_S1x8_S1x1x8_0_2 : S1x8.BroadcastsInDim S1x1x8 (![0, 2] : Fin 2 → Fin S1x1x8.rank)
  bcast_S32x512x1_S32x512x8_0_1_2 : S32x512x1.BroadcastsInDim S32x512x8 (![0, 1, 2] : Fin 3 → Fin S32x512x8.rank)
  bcast_S1x1x8_S32x512x8_0_1_2 : S1x1x8.BroadcastsInDim S32x512x8 (![0, 1, 2] : Fin 3 → Fin S32x512x8.rank)
  bcast_S_S32x512x8 : S_.BroadcastsInDim S32x512x8 (![] : Fin 0 → Fin S32x512x8.rank)
  shapeCasts_S32x512x8_S32x4096 : S32x512x8.ShapeCasts S32x4096
  bcast_S_S32x4096 : S_.BroadcastsInDim S32x4096 (![] : Fin 0 → Fin S32x4096.rank)
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S128x1024_S128x1024_0_0 : ∀ a, (![0, 0] : Fin 2 → Nat) a + S128x1024.size a ≤ S128x1024.size a
  h_S128x1024 : 0 < S128x1024.numel
  iota_S1x8x1_d1_w32 : S1x8x1.Iotas .tc 32 [1]
  shapeCasts_S128x1024_S128x1x1024 : S128x1024.ShapeCasts S128x1x1024
  broadcasts_S128x1x1024_S128x8x1024 : S128x1x1024.Broadcasts S128x8x1024
  broadcasts_S1x8x1_S128x8x1024 : S1x8x1.Broadcasts S128x8x1024
  shapeCasts_S128x8x1024_S1024x1024 : S128x8x1024.ShapeCasts S1024x1024
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  shapeCasts_S8x1024_S8x1x1024 : S8x1024.ShapeCasts S8x1x1024
  shapeCasts_S8x1x1024_S8x1x1024 : S8x1x1024.ShapeCasts S8x1x1024
  broadcasts_S8x1x1024_S8x128x1024 : S8x1x1024.Broadcasts S8x128x1024
  shapeCasts_S8x128x1024_S1024x1024 : S8x128x1024.ShapeCasts S1024x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x4096.size a
  hwx0_0 : ∀ i : grid0.Coords, EltTy.bits .f32 = 32 ∨ (Rect.block (s := S8192x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S512x4096.size a
  hwx0_1 : ∀ i : grid0.Coords, EltTy.bits .i32 = 32 ∨ (Rect.block (s := S512x4096) S128x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1024.size a ≤ S32x4096.size a
  hwx0_2 : ∀ i : grid0.Coords, EltTy.bits .f32 = 32 ∨ (Rect.block (s := S32x4096) S8x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1024.size a ≤ S32x4096.size a
  hwx0_3 : ∀ i : grid0.Coords, EltTy.bits .f32 = 32 ∨ (Rect.block (s := S32x4096) S8x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x4096.size a
  hwx0_5 : ∀ i : grid0.Coords, EltTy.bits .f32 = 32 ∨ (Rect.block (s := S8192x4096) S512x1024.size (cc0_transform_5 i) (hinb0_5 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S8x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v16) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x4096 : Shape := ⟨2, ![8192, 4096]⟩
abbrev S512x4096 : Shape := ⟨2, ![512, 4096]⟩
abbrev S32x512 : Shape := ⟨2, ![32, 512]⟩
abbrev S32x4096 : Shape := ⟨2, ![32, 4096]⟩
abbrev S4096 : Shape := ⟨1, ![4096]⟩
abbrev S8 : Shape := ⟨1, ![8]⟩
abbrev S_ : Shape := ⟨0, ![]⟩
abbrev S512x1x4096 : Shape := ⟨3, ![512, 1, 4096]⟩
abbrev S1x8x1 : Shape := ⟨3, ![1, 8, 1]⟩
abbrev S512x8x4096 : Shape := ⟨3, ![512, 8, 4096]⟩
abbrev S4096x4096 : Shape := ⟨2, ![4096, 4096]⟩
abbrev S32x512x1 : Shape := ⟨3, ![32, 512, 1]⟩
abbrev S1x1x8 : Shape := ⟨3, ![1, 1, 8]⟩
abbrev S32x512x8 : Shape := ⟨3, ![32, 512, 8]⟩
abbrev S4096x1 : Shape := ⟨2, ![4096, 1]⟩
abbrev S1x4096 : Shape := ⟨2, ![1, 4096]⟩

abbrev nBuf : Space → Nat
  | .hbm => 79
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S512x4096, .i32⟩
  | .hbm, ⟨2, _⟩ => ⟨S32x512, .i32⟩
  | .hbm, ⟨3, _⟩ => ⟨S32x4096, .f32⟩
  | .hbm, ⟨4, _⟩ => ⟨S4096, .f32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S512x1x4096, .i32⟩
  | .hbm, ⟨10, _⟩ => ⟨S1x8x1, .i32⟩
  | .hbm, ⟨11, _⟩ => ⟨S512x8x4096, .i32⟩
  | .hbm, ⟨12, _⟩ => ⟨S512x8x4096, .i32⟩
  | .hbm, ⟨13, _⟩ => ⟨S512x8x4096, .i32⟩
  | .hbm, ⟨14, _⟩ => ⟨S_, .i32⟩
  | .hbm, ⟨15, _⟩ => ⟨S512x8x4096, .i32⟩
  | .hbm, ⟨16, _⟩ => ⟨S512x8x4096, .i32⟩
  | .hbm, ⟨17, _⟩ => ⟨S4096x4096, .i32⟩
  | .hbm, ⟨18, _⟩ => ⟨S8, .i32⟩
  | .hbm, ⟨19, _⟩ => ⟨S_, .i32⟩
  | .hbm, ⟨20, _⟩ => ⟨S8, .i32⟩
  | .hbm, ⟨21, _⟩ => ⟨S8, .i32⟩
  | .hbm, ⟨22, _⟩ => ⟨S32x512x1, .i32⟩
  | .hbm, ⟨23, _⟩ => ⟨S1x1x8, .i32⟩
  | .hbm, ⟨24, _⟩ => ⟨S32x512x8, .i32⟩
  | .hbm, ⟨25, _⟩ => ⟨S32x512x8, .i32⟩
  | .hbm, ⟨26, _⟩ => ⟨S32x512x8, .i32⟩
  | .hbm, ⟨27, _⟩ => ⟨S_, .i32⟩
  | .hbm, ⟨28, _⟩ => ⟨S32x512x8, .i32⟩
  | .hbm, ⟨29, _⟩ => ⟨S32x512x8, .i32⟩
  | .hbm, ⟨30, _⟩ => ⟨S32x4096, .i32⟩
  | .hbm, ⟨31, _⟩ => ⟨S_, .i32⟩
  | .hbm, ⟨32, _⟩ => ⟨S32x4096, .i32⟩
  | .hbm, ⟨33, _⟩ => ⟨S32x4096, .i32⟩
  | .hbm, ⟨34, _⟩ => ⟨S4096, .i32⟩
  | .hbm, ⟨35, _⟩ => ⟨S_, .i32⟩
  | .hbm, ⟨36, _⟩ => ⟨S_, .i32⟩
  | .hbm, ⟨37, _⟩ => ⟨S4096, .i32⟩
  | .hbm, ⟨38, _⟩ => ⟨S4096, .i32⟩
  | .hbm, ⟨39, _⟩ => ⟨S4096, .i32⟩
  | .hbm, ⟨40, _⟩ => ⟨S_, .i32⟩
  | .hbm, ⟨41, _⟩ => ⟨S4096, .i32⟩
  | .hbm, ⟨42, _⟩ => ⟨S4096, .i1⟩
  | .hbm, ⟨43, _⟩ => ⟨S4096, .i32⟩
  | .hbm, ⟨44, _⟩ => ⟨S4096, .i32⟩
  | .hbm, ⟨45, _⟩ => ⟨S_, .i32⟩
  | .hbm, ⟨46, _⟩ => ⟨S4096, .i32⟩
  | .hbm, ⟨47, _⟩ => ⟨S4096, .i1⟩
  | .hbm, ⟨48, _⟩ => ⟨S4096, .i1⟩
  | .hbm, ⟨49, _⟩ => ⟨S_, .i32⟩
  | .hbm, ⟨50, _⟩ => ⟨S4096, .i32⟩
  | .hbm, ⟨51, _⟩ => ⟨S4096, .i32⟩
  | .hbm, ⟨52, _⟩ => ⟨S4096, .i32⟩
  | .hbm, ⟨53, _⟩ => ⟨S4096x4096, .f32⟩
  | .hbm, ⟨54, _⟩ => ⟨S_, .i32⟩
  | .hbm, ⟨55, _⟩ => ⟨S4096, .i32⟩
  | .hbm, ⟨56, _⟩ => ⟨S4096, .i1⟩
  | .hbm, ⟨57, _⟩ => ⟨S_, .i32⟩
  | .hbm, ⟨58, _⟩ => ⟨S4096, .i32⟩
  | .hbm, ⟨59, _⟩ => ⟨S4096, .i32⟩
  | .hbm, ⟨60, _⟩ => ⟨S4096, .i32⟩
  | .hbm, ⟨61, _⟩ => ⟨S4096x1, .i32⟩
  | .hbm, ⟨62, _⟩ => ⟨S4096x4096, .i32⟩
  | .hbm, ⟨63, _⟩ => ⟨S4096x4096, .f32⟩
  | .hbm, ⟨64, _⟩ => ⟨S4096x4096, .f32⟩
  | .hbm, ⟨65, _⟩ => ⟨S_, .i32⟩
  | .hbm, ⟨66, _⟩ => ⟨S4096, .i32⟩
  | .hbm, ⟨67, _⟩ => ⟨S4096, .i1⟩
  | .hbm, ⟨68, _⟩ => ⟨S_, .i32⟩
  | .hbm, ⟨69, _⟩ => ⟨S4096, .i32⟩
  | .hbm, ⟨70, _⟩ => ⟨S4096, .i32⟩
  | .hbm, ⟨71, _⟩ => ⟨S4096, .i32⟩
  | .hbm, ⟨72, _⟩ => ⟨S4096x1, .i32⟩
  | .hbm, ⟨73, _⟩ => ⟨S4096x4096, .f32⟩
  | .hbm, ⟨74, _⟩ => ⟨S4096x4096, .f32⟩
  | .hbm, ⟨75, _⟩ => ⟨S8192x4096, .f32⟩
  | .hbm, ⟨76, _⟩ => ⟨S1x4096, .f32⟩
  | .hbm, ⟨77, _⟩ => ⟨S8192x4096, .f32⟩
  | .hbm, ⟨78, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_4 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_c : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_c_0 : Ref sig .tc := ⟨.hbm, 49, rfl⟩
abbrev main_call0_v12 : Ref sig .tc := ⟨.hbm, 50, rfl⟩
abbrev main_call0_v13 : Ref sig .tc := ⟨.hbm, 51, rfl⟩
abbrev main_v25 : Ref sig .tc := ⟨.hbm, 52, rfl⟩
abbrev main_v26 : Ref sig .tc := ⟨.hbm, 53, rfl⟩
abbrev main_c_5 : Ref sig .tc := ⟨.hbm, 54, rfl⟩
abbrev main_v27 : Ref sig .tc := ⟨.hbm, 55, rfl⟩
abbrev main_v28 : Ref sig .tc := ⟨.hbm, 56, rfl⟩
abbrev main_c_6 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_c_7 : Ref sig .tc := ⟨.hbm, 65, rfl⟩
abbrev main_v36 : Ref sig .tc := ⟨.hbm, 66, rfl⟩
abbrev main_v37 : Ref sig .tc := ⟨.hbm, 67, rfl⟩
abbrev main_c_8 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S512x4096_S512x1x4096_0_2 : S512x4096.BroadcastsInDim S512x1x4096 (![0, 2] : Fin 2 → Fin S512x1x4096.rank)
  bcast_S8_S1x8x1_1 : S8.BroadcastsInDim S1x8x1 (![1] : Fin 1 → Fin S1x8x1.rank)
  bcast_S512x1x4096_S512x8x4096_0_1_2 : S512x1x4096.BroadcastsInDim S512x8x4096 (![0, 1, 2] : Fin 3 → Fin S512x8x4096.rank)
  bcast_S1x8x1_S512x8x4096_0_1_2 : S1x8x1.BroadcastsInDim S512x8x4096 (![0, 1, 2] : Fin 3 → Fin S512x8x4096.rank)
  bcast_S_S512x8x4096 : S_.BroadcastsInDim S512x8x4096 (![] : Fin 0 → Fin S512x8x4096.rank)
  shapeCasts_S512x8x4096_S4096x4096 : S512x8x4096.ShapeCasts S4096x4096
  bcast_S32x512_S32x512x1_0_1 : S32x512.BroadcastsInDim S32x512x1 (![0, 1] : Fin 2 → Fin S32x512x1.rank)
  bcast_S8_S1x1x8_2 : S8.BroadcastsInDim S1x1x8 (![2] : Fin 1 → Fin S1x1x8.rank)
  bcast_S32x512x1_S32x512x8_0_1_2 : S32x512x1.BroadcastsInDim S32x512x8 (![0, 1, 2] : Fin 3 → Fin S32x512x8.rank)
  bcast_S1x1x8_S32x512x8_0_1_2 : S1x1x8.BroadcastsInDim S32x512x8 (![0, 1, 2] : Fin 3 → Fin S32x512x8.rank)
  bcast_S_S32x512x8 : S_.BroadcastsInDim S32x512x8 (![] : Fin 0 → Fin S32x512x8.rank)
  shapeCasts_S32x512x8_S32x4096 : S32x512x8.ShapeCasts S32x4096
  bcast_S_S32x4096 : S_.BroadcastsInDim S32x4096 (![] : Fin 0 → Fin S32x4096.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  gather_S32x4096_S4096x1_S4096x4096_1_0_n_n_0_1_14096_wf : GatherDims.WF S32x4096 S4096x1 S4096x4096 [1] [0] [] [0] [] 1 ![1, 4096]
  dot_S8192x4096_S4096x4096_S8192x4096_1_0_0_1_n_n_wf : DotDims.WF S8192x4096 S4096x4096 S8192x4096 [1] [0] [0] [1] [] []

variable [Facts₀]

def gather_S32x4096_S4096x1_S4096x4096_1_0_n_n_0_1_14096 : GatherDims S32x4096 S4096x1 S4096x4096 where
  offsetDims := [1]
  collapsedSliceDims := [0]
  operandBatchingDims := []
  startIndicesBatchingDims := []
  startIndexMap := [0]
  indexVectorDim := 1
  sliceSizes := ![1, 4096]
  wf := gather_S32x4096_S4096x1_S4096x4096_1_0_n_n_0_1_14096_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Spec.lean ====
/-
  The mathematics both programs compute, as functions of the five argument arrays, over the extended reals.

  A packed word holds eight four-bit fields; field p of a word is the word shifted right by 4p places (sign
  extending) with the low four bits kept, a number in [0, 15]. Row a = 8r + p of the unpacked weight is field p of
  packed row r; column j = 8c + p of the unpacked zero points is field p of packed column c. Input channel a belongs
  to group a / 128. The dequantized weight is W[a, j] = (w[a, j] - (z[g(a), j] + 1)) * s[g(a), j], and the result is
  out[p, q] = (sum over a < 4096 of x[p, a] * W[a, q]) + bias[q].

  Also here: the shift by 4p is below the word width, so every arithmetic unit computes the same field; adding one to a
  field does not wrap, so it is adding one to the field's integer value; the f32 pattern 0x3F800000 is the real 1.
-/
import Idealize.ShloMosaic.PureOps.Ideal
import Idealize.ShloMosaic.PureOps.Ideal.Laws
import Idealize.ShloMosaic.Lib.ValueIdx

noncomputable section

namespace Cert.Dequant

open Idealize.ShloMosaic Idealize.ShloMosaic.ValueIdx

/-- Field p of a word: the word shifted right by 4p places, sign extending, low four bits kept. -/
def nib (q : BitVec 32) (p : Fin 8) : BitVec 32 := (q.sshiftRight (4 * p.val)) &&& 15#32

/-- A word read as a signed integer, as an extended real. -/
def toR (b : BitVec 32) : EReal := ((b.toInt : ℝ) : EReal)

/-- The unpacked weight's word at row a = 8r + p, column j: field p of packed row r. -/
def wField (qw : (⟨2, ![512, 4096]⟩ : Shape).Idx → BitVec 32) (a j : Fin 4096) : BitVec 32 :=
  nib (qw (ix2 (⟨a.val / 8, by have := a.isLt; omega⟩ : Fin 512) j)) ⟨a.val % 8, Nat.mod_lt _ (by decide)⟩

/-- The unpacked zero point's word at group g, column j = 8c + p: field p of packed column c. -/
def zField (qz : (⟨2, ![32, 512]⟩ : Shape).Idx → BitVec 32) (g : Fin 32) (j : Fin 4096) : BitVec 32 :=
  nib (qz (ix2 g (⟨j.val / 8, by have := j.isLt; omega⟩ : Fin 512))) ⟨j.val % 8, Nat.mod_lt _ (by decide)⟩

/-- The group of input channel a. -/
def grp (a : Fin 4096) : Fin 32 := ⟨a.val / 128, by have := a.isLt; omega⟩

/-- The dequantized weight at input channel a, output channel j. -/
def W (qw : (⟨2, ![512, 4096]⟩ : Shape).Idx → BitVec 32) (qz : (⟨2, ![32, 512]⟩ : Shape).Idx → BitVec 32)
    (sc : (⟨2, ![32, 4096]⟩ : Shape).Idx → EReal) (a j : Fin 4096) : EReal :=
  (toR (wField qw a j) - (toR (zField qz (grp a) j) + 1)) * sc (ix2 (grp a) j)

/-- The result: x times the dequantized weight, plus the bias along the rows. -/
def out (x : (⟨2, ![8192, 4096]⟩ : Shape).Idx → EReal) (qw : (⟨2, ![512, 4096]⟩ : Shape).Idx → BitVec 32)
    (qz : (⟨2, ![32, 512]⟩ : Shape).Idx → BitVec 32) (sc : (⟨2, ![32, 4096]⟩ : Shape).Idx → EReal)
    (b : (⟨1, ![4096]⟩ : Shape).Idx → EReal) : (⟨2, ![8192, 4096]⟩ : Shape).Idx → EReal :=
  fun y => (∑ a : Fin 4096, x (ix2 (y 0) a) * W qw qz sc a (y 1)) + b (ix1 (y 1))

theorem out_ix2 (x : (⟨2, ![8192, 4096]⟩ : Shape).Idx → EReal) (qw : (⟨2, ![512, 4096]⟩ : Shape).Idx → BitVec 32)
    (qz : (⟨2, ![32, 512]⟩ : Shape).Idx → BitVec 32) (sc : (⟨2, ![32, 4096]⟩ : Shape).Idx → EReal)
    (b : (⟨1, ![4096]⟩ : Shape).Idx → EReal) (p : Fin 8192) (q : Fin 4096) :
    out x qw qz sc b (ix2 p q) = (∑ a : Fin 4096, x (ix2 p a) * W qw qz sc a q) + b (ix1 q) := rfl

/-- The shift amount 4p, as the word p times the word 4, is 4p read unsigned: below the width. -/
theorem shiftAmt_toNat (p : Fin 8) : (IntOp.muli (BitVec.ofNat 32 p.val) 4#32).toNat = 4 * p.val := by
  revert p; decide

/-- Whatever the arithmetic unit, a shift by 4p is an in-range shift, so "shift, then keep four bits" is the field. -/
theorem andi_shrsi_field (u : ArithUnit) (q : BitVec 32) (p : Fin 8) :
    IntOp.andi (IntOp.shrsi u q (IntOp.muli (BitVec.ofNat 32 p.val) 4#32)) 15#32 = nib q p := by
  have h := shiftAmt_toNat p
  have hlt : (IntOp.muli (BitVec.ofNat 32 p.val) 4#32).toNat < 32 := by rw [h]; have := p.isLt; omega
  unfold IntOp.shrsi IntOp.andi nib
  rw [if_pos hlt, BitVec.sshiftRight', h]

/-- A field is at most 15. -/
theorem nib_toNat_le (q : BitVec 32) (p : Fin 8) : (nib q p).toNat ≤ 15 := by
  unfold nib
  rw [BitVec.toNat_and]
  exact Nat.and_le_right

/-- Adding one to a field does not wrap: its signed value goes up by one. -/
theorem toR_field_succ (q : BitVec 32) (p : Fin 8) : toR (IntOp.addi (nib q p) 1#32) = toR (nib q p) + 1 := by
  have hle := nib_toNat_le q p
  have h1 : (IntOp.addi (nib q p) 1#32).toInt = (nib q p).toInt + 1 := by
    unfold IntOp.addi
    rw [BitVec.toInt_eq_toNat_of_lt (by rw [BitVec.toNat_add]; simp; omega),
      BitVec.toInt_eq_toNat_of_lt (by omega), BitVec.toNat_add]
    simp
    omega
  unfold toR
  rw [h1]
  push_cast
  rfl

/-- The f32 pattern of one is the real one. -/
theorem one_f32 : Ideal.ofBits .f32 0x3F800000#32 = 1 := by
  simp [Ideal.ofBits, Ideal.ieee]
  rw [← EReal.coe_mul]
  norm_num

end Cert.Dequant

end
-- ==== Proof.LibIdxSums.lean ====
/-
  General lemmas on finite sums over index types, generic in the sizes and in the additive commutative monoid summed in.

  `sum_fin_mul`: a sum over `Fin (m * n)` is the double sum over quotient `a : Fin m` and remainder `b : Fin n` of the
  entry `a * n + b`. `sum_idx1`, `sum_idx3u`: a sum over the indices of a rank-1 array, or of an [n, 1, 1] array, is
  the sum over `Fin n` of the entries `ix1 k`, `ix3 q 0 0`. `sum_concat3`: the sum of a rank-1 concatenation of three
  pieces (StableHLO's concatenate along axis 0) is the sum of the three pieces' sums — the entry at position c comes
  from the first piece when c < n₁, from the second at c - n₁ when n₁ ≤ c < n₁ + n₂, from the third at
  c - (n₁ + n₂) otherwise.
-/
import Idealize.ShloMosaic.Lib.ValueIdx
import Idealize.ShloMosaic.Lib.Pipeline.Value
import Mathlib.Algebra.BigOperators.Fin
import Mathlib.Logic.Equiv.Fin.Basic

noncomputable section

namespace Cert.IdxSums

open Idealize.ShloMosaic Idealize.ShloMosaic.ValueIdx

/-- A sum over `Fin (m * n)` taken quotient by quotient: the entry `a * n + b` is met once, at quotient `a` and
    remainder `b`. -/
theorem sum_fin_mul {M : Type*} [AddCommMonoid M] (m n : ℕ) (f : Fin (m * n) → M) :
    ∑ i, f i = ∑ a : Fin m, ∑ b : Fin n,
      f ⟨a.val * n + b.val, by
        have ha := a.isLt; have hb := b.isLt
        calc a.val * n + b.val < a.val * n + n := by omega
          _ = (a.val + 1) * n := by rw [Nat.add_mul, Nat.one_mul]
          _ ≤ m * n := Nat.mul_le_mul_right n ha⟩ := by
  rw [← Equiv.sum_comp finProdFinEquiv f, Fintype.sum_prod_type]
  refine Finset.sum_congr rfl fun a _ => Finset.sum_congr rfl fun b _ => congrArg f (Fin.ext ?_)
  show b.val + n * a.val = a.val * n + b.val
  rw [Nat.mul_comm, Nat.add_comm]

/-- A rank-1 index set is its coordinate's range … -/
def idxEquiv1 {n : Nat} : (⟨1, ![n]⟩ : Shape).Idx ≃ Fin n where
  toFun i := i 0
  invFun k := ix1 k
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

/-- The indices of an [n, 1, 1] array are the `(q, 0, 0)` … -/
def idxEquiv3u {n : Nat} : (⟨3, ![n, 1, 1]⟩ : Shape).Idx ≃ Fin n where
  toFun i := i 0
  invFun q := ix3 q (0 : Fin 1) (0 : Fin 1)
  left_inv i := by
    funext a
    match a with
    | ⟨0, _⟩ => rfl
    | ⟨1, _⟩ => exact (Subsingleton.elim (α := Fin 1) _ _)
    | ⟨2, _⟩ => exact (Subsingleton.elim (α := Fin 1) _ _)
  right_inv _ := rfl

/-- … so a sum over them is the sum over `q`. -/
theorem sum_idx3u {M : Type*} [AddCommMonoid M] {n : Nat} (f : (⟨3, ![n, 1, 1]⟩ : Shape).Idx → M) :
    ∑ i, f i = ∑ q : Fin n, f (ix3 q (0 : Fin 1) (0 : Fin 1)) := by
  rw [← Equiv.sum_comp (idxEquiv3u (n := n)).symm f]
  rfl

/-- The sum of a rank-1 concatenation of three pieces is the sum of the three pieces' sums. -/
theorem sum_concat3 {M : Type} [AddCommMonoid M] (n1 n2 n3 : Nat)
    (u : (⟨1, ![n1]⟩ : Shape).Idx → M) (v : (⟨1, ![n2]⟩ : Shape).Idx → M) (w : (⟨1, ![n3]⟩ : Shape).Idx → M)
    (h : Shape.Concatenates [(⟨1, ![n1]⟩ : Shape), ⟨1, ![n2]⟩, ⟨1, ![n3]⟩] ⟨1, ![n1 + n2 + n3]⟩ 0) :
    ∑ j : (⟨1, ![n1 + n2 + n3]⟩ : Shape).Idx,
        concatenate (⟨1, ![n1 + n2 + n3]⟩ : Shape) 0 [⟨(⟨1, ![n1]⟩ : Shape), u⟩, ⟨(⟨1, ![n2]⟩ : Shape), v⟩, ⟨(⟨1, ![n3]⟩ : Shape), w⟩] h j
      = ∑ i, u i + ∑ i, v i + ∑ i, w i := by
  rw [sum_idx1, sum_idx1 u, sum_idx1 v, sum_idx1 w, Fin.sum_univ_add, Fin.sum_univ_add]
  refine congrArg₂ (· + ·) (congrArg₂ (· + ·) ?_ ?_) ?_
  · refine Finset.sum_congr rfl fun k _ => ?_
    exact concatenate_apply_piece (t := (⟨1, ![n1 + n2 + n3]⟩ : Shape)) (0 : Fin 1)
      [⟨(⟨1, ![n1]⟩ : Shape), u⟩, ⟨(⟨1, ![n2]⟩ : Shape), v⟩, ⟨(⟨1, ![n3]⟩ : Shape), w⟩] h
      (ix1 (Fin.castAdd n3 (Fin.castAdd n2 k))) 0 (by simp) (⟨1, ![n1]⟩ : Shape) u rfl rfl 0 rfl (ix1 k)
      (fun b hb => absurd (Subsingleton.elim (α := Fin 1) _ _) hb) (Nat.zero_add _)
  · refine Finset.sum_congr rfl fun k _ => ?_
    exact concatenate_apply_piece (t := (⟨1, ![n1 + n2 + n3]⟩ : Shape)) (0 : Fin 1)
      [⟨(⟨1, ![n1]⟩ : Shape), u⟩, ⟨(⟨1, ![n2]⟩ : Shape), v⟩, ⟨(⟨1, ![n3]⟩ : Shape), w⟩] h
      (ix1 (Fin.castAdd n3 (Fin.natAdd n1 k))) 1 (by simp) (⟨1, ![n2]⟩ : Shape) v rfl rfl n1 (by simp) (ix1 k)
      (fun b hb => absurd (Subsingleton.elim (α := Fin 1) _ _) hb) rfl
  · refine Finset.sum_congr rfl fun k _ => ?_
    exact concatenate_apply_piece (t := (⟨1, ![n1 + n2 + n3]⟩ : Shape)) (0 : Fin 1)
      [⟨(⟨1, ![n1]⟩ : Shape), u⟩, ⟨(⟨1, ![n2]⟩ : Shape), v⟩, ⟨(⟨1, ![n3]⟩ : Shape), w⟩] h
      (ix1 (Fin.natAdd (n1 + n2) k)) 2 (by simp) (⟨1, ![n3]⟩ : Shape) w rfl rfl (n1 + n2) (by simp) (ix1 k)
      (fun b hb => absurd (Subsingleton.elim (α := Fin 1) _ _) hb) rfl

end Cert.IdxSums

end
-- ==== Proof.KerPieces.lean ====
/-
  What one grid point's body leaves behind, as pure functions of what it loads.

  The body keeps a 512 x 1024 accumulator in a scratch buffer carried from point to point. At the first point of a
  run along the contraction axis it stores zero into the accumulator and then adds the point's product into it; at
  the later points it adds the point's product into what the point before left; at the last point of the run it also
  stores "accumulator plus the bias row" into the output block. Here each of these is read off the stores the body
  makes: the accumulator after a first point is the update applied to the zero array, after a later point the update
  applied to the previous accumulator, and the output block at a last point is the emit applied to that updated
  accumulator. The update and the emit are the body's own arithmetic, kept folded.
-/
import proofs.«417043_j86071144611916_3_alg».proof.Proof.Gen.KernelIdeal.Frame
import Idealize.ShloMosaic.Lib.Pipeline.Value

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- The whole-block rectangle starts at offset zero on both axes. -/
theorem zero_off : (![0, 0] : Fin 2 → Nat) = fun _ => 0 := funext fun a => by fin_cases a <;> rfl

/-- First point of a run: zero is stored, read back, and the point's update applied to it is what stays. -/
theorem scratch_first (c : Dev nD) (i : grid0.Coords) (arg3 : Memref sig .tc .vmem S512x1024 .f32) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (hc0 : cond0_0 i) (hc1 : ¬cond0_1 i)
    (x0 : Vec F S512x1024 .f32) (x1 : Vec F S128x1024 .i32) (x2 : Vec F S8x1024 .f32) (x3 : Vec F S8x1024 .f32) (x4 : Vec F S1x1024 .f32) :
    sout0_A_0 c i arg3 harg3 arg4 harg4 arg5 harg5 arg6 harg6 arg7 harg7 arg8 harg8 arg9 harg9 hc0 hc1 x0 x1 x2 x3 x4 = k0_pay3 x1 x2 x3 x0 (k0_pay2 (F := F)) := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S512x1024) zero_off, View.readCov_unit_zero (S := S512x1024) _ zero_off]
  simp only [View.readAt_eq_ld, harg3.read_unread, harg4.read_unread, harg5.read_unread, harg6.read_unread,
    View.ld_unit_zero (S := S512x1024) zero_off, View.ld_unit_zero (S := S128x1024) zero_off,
    View.ld_unit_zero (S := S8x1024) zero_off]

/-- A later point that is not the run's last: the update applied to what the point before left. -/
theorem scratch_later (c : Dev nD) (i : grid0.Coords) (arg3 : Memref sig .tc .vmem S512x1024 .f32) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (hc0 : ¬cond0_0 i) (hc1 : ¬cond0_1 i)
    (x0 : Vec F S512x1024 .f32) (x1 : Vec F S128x1024 .i32) (x2 : Vec F S8x1024 .f32) (x3 : Vec F S8x1024 .f32) (x4 : Vec F S1x1024 .f32) (xs0 : Vec F S512x1024 .f32) :
    sout0_B_0 c i arg3 harg3 arg4 harg4 arg5 harg5 arg6 harg6 arg7 harg7 arg8 harg8 arg9 harg9 hc0 hc1 x0 x1 x2 x3 x4 xs0 = k0_pay3 x1 x2 x3 x0 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xs0)]
  unfold kernelRun0_B
  dsimp only
  sl_unfold_words
  rw [View.canon_unit_zero (S := S512x1024) zero_off]
  simp only [View.readAt_eq_ld, harg3.read_unread, harg4.read_unread, harg5.read_unread, harg6.read_unread,
    harg9.read_unread, View.ld_unit_zero (S := S512x1024) zero_off, View.ld_unit_zero (S := S128x1024) zero_off,
    View.ld_unit_zero (S := S8x1024) zero_off]

/-- The run's last point: the output block is the emit of the accumulator updated over what the point before left. -/
theorem out_last (c : Dev nD) (i : grid0.Coords) (arg3 : Memref sig .tc .vmem S512x1024 .f32) (harg3 : arg3.IsWhole) (arg4 : Memref sig .tc .vmem S128x1024 .i32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (hc0 : ¬cond0_0 i) (hc1 : cond0_1 i)
    (x0 : Vec F S512x1024 .f32) (x1 : Vec F S128x1024 .i32) (x2 : Vec F S8x1024 .f32) (x3 : Vec F S8x1024 .f32) (x4 : Vec F S1x1024 .f32) (xs0 : Vec F S512x1024 .f32) :
    out0_C_5 c i arg3 harg3 arg4 harg4 arg5 harg5 arg6 harg6 arg7 harg7 arg8 harg8 arg9 harg9 hc0 hc1 x0 x1 x2 x3 x4 xs0 = k0_pay1 (k0_pay3 x1 x2 x3 x0 xs0) x4 := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero (S := S512x1024) zero_off, View.readCov_unit_zero (S := S512x1024) _ zero_off]
  simp only [View.readAt_eq_ld, harg3.read_unread, harg4.read_unread, harg5.read_unread, harg6.read_unread,
    harg7.read_unread, harg9.read_unread, View.ld_unit_zero (S := S512x1024) zero_off,
    View.ld_unit_zero (S := S128x1024) zero_off, View.ld_unit_zero (S := S8x1024) zero_off,
    View.ld_unit_zero (S := S1x1024) zero_off]

end Cert.KernelIdeal.Pieces

end
-- ==== Proof.LibPlainDot.lean ====
/-
  A plain matrix product read at an index, generic in the sizes. For dimension numbers that contract the left
  operand's columns with the right operand's rows, with no batch axis (rows × contraction times contraction ×
  columns), the sum over the contraction shape's indices of the operands' products at the dot's operand indices is the
  sum over k < K of l[p, k] · r[k, q]. A kernel's matrix unit into a zero accumulator and the host's dot both read
  through it at the ideal values. Imports only the library.
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : Nat} (D : DotDims ⟨2, ![M, K]⟩ ⟨2, ![K, N]⟩ ⟨2, ![M, N]⟩)

/-- Two spellings of one axis position read the same coordinate. -/
theorem coord_val_congr {s : Shape} (j : s.Idx) (p q : Nat) (hp : p < s.rank) (hq : q < s.rank) (h : p = q) :
    (j ⟨p, hp⟩).val = (j ⟨q, hq⟩).val := by subst h; rfl

/-- The left operand's row is the result's row: axis 0 is the left operand's one free axis, first among the result's. -/
theorem lhs_row (hlb : D.lhsBatch = []) (hln : D.lhsNonContracting = [0]) (p : Fin M) (q : Fin N) (k : D.contr.Idx) :
    (D.lhsIdx (ix2 p q) k 0).val = p.val := by
  unfold DotDims.lhsIdx
  rw [dif_neg (by rw [hlb]; exact List.not_mem_nil), dif_pos (by rw [hln]; exact List.mem_singleton.mpr rfl)]
  simp only [Fin.val_cast]
  exact coord_val_congr (ix2 p q) _ 0 _ (show 0 < 2 by omega) (by simp [hlb, hln])

/-- The right operand's column is the result's column: axis 1 is the right operand's one free axis, second among the result's. -/
theorem rhs_col (hlb : D.lhsBatch = []) (hrb : D.rhsBatch = []) (hln : D.lhsNonContracting = [0]) (hrn : D.rhsNonContracting = [1])
    (p : Fin M) (q : Fin N) (k : D.contr.Idx) : (D.rhsIdx (ix2 p q) k 1).val = q.val := by
  unfold DotDims.rhsIdx
  rw [dif_neg (by rw [hrb]; exact List.not_mem_nil), dif_pos (by rw [hrn]; exact List.mem_singleton.mpr rfl)]
  simp only [Fin.val_cast]
  exact coord_val_congr (ix2 p q) _ 1 _ (show 1 < 2 by omega) (by simp [hlb, hln, hrn])

/-- The product at result index (p, q): the contraction re-indexed by its one coordinate. -/
theorem sum_plain (hlc : D.lhsContracting = [1]) (hrc : D.rhsContracting = [0]) (hln : D.lhsNonContracting = [0])
    (hrn : D.rhsNonContracting = [1]) (hlb : D.lhsBatch = []) (hrb : D.rhsBatch = [])
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  have hr : D.contr.rank = 1 := by rw [D.rank_contr, hlc]; rfl
  have hs : D.contr.size ⟨0, by omega⟩ = K := by
    have h := D.size_contr 0 (by rw [hlc]; exact Nat.one_pos)
    rw [h]; simp [hlc]
  rw [← Equiv.sum_comp (contrEquiv1 D K hr hs).symm]
  refine Finset.sum_congr rfl fun k _ => ?_
  have hk := contrEquiv1_symm_val D K hr hs k
  have e1 : D.lhsIdx (ix2 p q) ((contrEquiv1 D K hr hs).symm k) = ix2 p k := by
    funext a
    match a with
    | ⟨0, _⟩ => exact Fin.ext (lhs_row D hlb hln p q _)
    | ⟨1, _⟩ => exact Fin.ext ((D.lhsIdx_val_of_single hlc (ix2 p q) _).trans hk)
  have e2 : D.rhsIdx (ix2 p q) ((contrEquiv1 D K hr hs).symm k) = ix2 k q := by
    funext a
    match a with
    | ⟨0, _⟩ => exact Fin.ext ((D.rhsIdx_val_of_single hrc (ix2 p q) _).trans hk)
    | ⟨1, _⟩ => exact Fin.ext (rhs_col D hlb hrb hln hrn p q _)
  rw [e1, e2]

/-- The matrix product as a function of the result index: entry (p, q) is ∑_k l[p, k] · r[k, q] on the extended reals. -/
def matProd (l : (⟨2, ![M, K]⟩ : Shape).Idx → EReal) (r : (⟨2, ![K, N]⟩ : Shape).Idx → EReal) :
    (⟨2, ![M, N]⟩ : Shape).Idx → EReal :=
  fun y => ∑ k : Fin K, l (ix2 (y 0) k) * r (ix2 k (y 1))

theorem matProd_ix2 (l : (⟨2, ![M, K]⟩ : Shape).Idx → EReal) (r : (⟨2, ![K, N]⟩ : Shape).Idx → EReal) (p : Fin M) (q : Fin N) :
    matProd l r (ix2 p q) = ∑ k : Fin K, l (ix2 p k) * r (ix2 k q) := rfl

/-- The matrix unit's product into the zero accumulator, at the ideal values, is the matrix product. -/
theorem matmul_zero_eq_matProd {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) :
    FloatOps.matmul D prec l r (constant ⟨2, ![M, N]⟩ .f32 0x00000000#32) = matProd (M := M) (K := K) (N := N) l r := by
  funext y
  obtain ⟨p, q, rfl⟩ : ∃ (p : Fin M) (q : Fin N), y = ix2 p q := ⟨y 0, y 1, eq_ix2 y⟩
  rw [Ideal.matmul_constant_zero_apply, matProd_ix2]
  exact sum_plain D hlc hrc hln hrn hlb hrb l r p q

/-- The host's dot, at the ideal values, is the matrix product, whatever its precision and schedule keys. -/
theorem dotGeneral_eq_matProd {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision) (sched : HostSchedule)
    (l : FVec Ideal ⟨2, ![M, K]⟩ φ₁) (r : FVec Ideal ⟨2, ![K, N]⟩ φ₂) :
    FloatOps.dotGeneral D prec sched l r = matProd (M := M) (K := K) (N := N) l r := by
  funext y
  obtain ⟨p, q, rfl⟩ : ∃ (p : Fin M) (q : Fin N), y = ix2 p q := ⟨y 0, y 1, eq_ix2 y⟩
  rw [Ideal.dotGeneral_apply, matProd_ix2]
  exact sum_plain D hlc hrc hln hrn hlb hrb l r p q

end Cert.LibPlainDot

end
-- ==== Proof.KerPay.lean ====
/-
  One grid point's arithmetic read at an index, over the extended reals.

  A point loads a 512 x 1024 block of x, a 128 x 1024 block of packed weight words, and 8 x 1024 blocks of zero points
  and scales (one row per group of 128 input channels). Row u of the block's 1024 x 1024 dequantized weight is
  field u % 8 of packed row u / 8, minus the zero point of group u / 128, times that group's scale. The update adds
  the product of the x block with that weight to the accumulator: entry (r, s) goes up by the sum over u < 1024 of
  x[r, u] * w[u, s]. The reset is the zero array; the emit adds the bias row to the accumulator.

  Layout: the three-axis array [128, 8, 1024] read as [1024, 1024] sends row u to (u / 8, u % 8), and [8, 128, 1024]
  read as [1024, 1024] sends row u to (u / 128, u % 128); a broadcast along a unit axis reads the operand at 0 there.
-/
import proofs.«417043_j86071144611916_3_alg».proof.Proof.Gen.KernelIdeal.Skeleton
import proofs.«417043_j86071144611916_3_alg».proof.Proof.Spec
import proofs.«417043_j86071144611916_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx Cert.Dequant

/-! ## Layout reads -/

/-- Packed rows given a unit middle axis and repeated eight times along it: entry (a, p, s) is the packed word (a, s). -/
theorem rows_repeated {α : Type} (x : S128x1024.Idx → α) (h1 : S128x1024.ShapeCasts S128x1x1024)
    (h2 : S128x1x1024.Broadcasts S128x8x1024) (a : Fin 128) (p : Fin 8) (s : Fin 1024) :
    broadcastTo S128x8x1024 (shapeCast S128x1x1024 x h1) h2 (ix3 a p s) = x (ix2 a s) := by
  refine (broadcastTo_apply _ h2 (ix3 a p s) (ix3 a (0 : Fin 1) s) fun ax => ?_).trans ?_
  · match ax with
    | ⟨0, _⟩ => rfl
    | ⟨1, _⟩ => rfl
    | ⟨2, _⟩ => rfl
  · exact shapeCast_apply x h1 _ (ix2 a s) (by
      rw [Shape.rowMajor_val_two, Shape.rowMajor_val_three]
      show a.val * 1024 + s.val = (a.val * 1 + 0) * 1024 + s.val
      omega)

/-- The shift amounts 0, 4, …, 28 laid along the middle axis: entry (a, p, s) is the word p times the word 4. -/
theorem amounts_repeated (hI : S1x8x1.Iotas .tc 32 [1]) (h3 : S1x8x1.Broadcasts S128x8x1024)
    (a : Fin 128) (p : Fin 8) (s : Fin 1024) :
    broadcastTo S128x8x1024 (muli (iota .tc S1x8x1 32 [1] hI) (broadcast S1x8x1 4#32)) h3 (ix3 a p s)
      = IntOp.muli (BitVec.ofNat 32 p.val) 4#32 := by
  refine (broadcastTo_apply _ h3 (ix3 a p s) (ix3 (0 : Fin 1) p (0 : Fin 1)) fun ax => ?_).trans ?_
  · match ax with
    | ⟨0, _⟩ => rfl
    | ⟨1, _⟩ => rfl
    | ⟨2, _⟩ => rfl
  · show IntOp.muli (BitVec.ofNat 32 (0 * 8 + p.val)) 4#32 = _
    rw [Nat.zero_mul, Nat.zero_add]

/-- The unpacked block: row u, column s is field u % 8 of packed word (u / 8, s). -/
theorem unpacked_apply (x1 : IVec S128x1024 32) (h1 : S128x1024.ShapeCasts S128x1x1024)
    (h2 : S128x1x1024.Broadcasts S128x8x1024) (hI : S1x8x1.Iotas .tc 32 [1]) (h3 : S1x8x1.Broadcasts S128x8x1024)
    (h4 : S128x8x1024.ShapeCasts S1024x1024) (u s : Fin 1024) :
    shapeCast S1024x1024 (andi (shrsi (broadcastTo S128x8x1024 (shapeCast S128x1x1024 x1 h1) h2)
        (broadcastTo S128x8x1024 (muli (iota .tc S1x8x1 32 [1] hI) (broadcast S1x8x1 4#32)) h3))
        (broadcast S128x8x1024 15#32)) h4 (ix2 u s)
      = nib (x1 (ix2 (⟨u.val / 8, by have := u.isLt; omega⟩ : Fin 128) s)) ⟨u.val % 8, Nat.mod_lt _ (by decide)⟩ := by
  refine (shapeCast_apply _ h4 (ix2 u s)
    (ix3 (⟨u.val / 8, by have := u.isLt; omega⟩ : Fin 128) (⟨u.val % 8, Nat.mod_lt _ (by decide)⟩ : Fin 8) s) ?_).trans ?_
  · rw [Shape.rowMajor_val_three, Shape.rowMajor_val_two]
    show (u.val / 8 * 8 + u.val % 8) * 1024 + s.val = u.val * 1024 + s.val
    omega
  · show IntOp.andi (IntOp.shrsi .vector (broadcastTo S128x8x1024 (shapeCast S128x1x1024 x1 h1) h2 (ix3 _ _ s))
        (broadcastTo S128x8x1024 (muli (iota .tc S1x8x1 32 [1] hI) (broadcast S1x8x1 4#32)) h3 (ix3 _ _ s))) 15#32 = _
    rw [rows_repeated, amounts_repeated]
    exact andi_shrsi_field .vector _ _

/-- A per-group row repeated over the group's 128 input channels: row u, column s is the group row (u / 128, s). -/
theorem group_rows_apply {α : Type} (x : S8x1024.Idx → α) (ha : S8x1024.ShapeCasts S8x1x1024)
    (hc : S8x1x1024.Broadcasts S8x128x1024) (hd : S8x128x1024.ShapeCasts S1024x1024) (u s : Fin 1024) :
    shapeCast S1024x1024 (broadcastTo S8x128x1024 (shapeCast S8x1x1024 x ha) hc) hd (ix2 u s)
      = x (ix2 (⟨u.val / 128, by have := u.isLt; omega⟩ : Fin 8) s) := by
  refine (shapeCast_apply _ hd (ix2 u s)
    (ix3 (⟨u.val / 128, by have := u.isLt; omega⟩ : Fin 8) (⟨u.val % 128, Nat.mod_lt _ (by decide)⟩ : Fin 128) s) ?_).trans ?_
  · rw [Shape.rowMajor_val_three, Shape.rowMajor_val_two]
    show (u.val / 128 * 128 + u.val % 128) * 1024 + s.val = u.val * 1024 + s.val
    omega
  refine (broadcastTo_apply _ hc _ (ix3 (⟨u.val / 128, by have := u.isLt; omega⟩ : Fin 8) (0 : Fin 1) s) fun ax => ?_).trans ?_
  · match ax with
    | ⟨0, _⟩ => rfl
    | ⟨1, _⟩ => rfl
    | ⟨2, _⟩ => rfl
  · exact shapeCast_apply x ha _ (ix2 _ s) (by
      rw [Shape.rowMajor_val_two, Shape.rowMajor_val_three]
      show u.val / 128 * 1024 + s.val = (u.val / 128 * 1 + 0) * 1024 + s.val
      omega)

/-! ## The block's dequantized weight, and the three payloads -/

/-- The block's dequantized weight at row u, column s. -/
def wAt (x1 : IVec S128x1024 32) (x2 x3 : FVec Ideal S8x1024 .f32) (u s : Fin 1024) : EReal :=
  (toR (nib (x1 (ix2 (⟨u.val / 8, by have := u.isLt; omega⟩ : Fin 128) s)) ⟨u.val % 8, Nat.mod_lt _ (by decide)⟩)
      - x2 (ix2 (⟨u.val / 128, by have := u.isLt; omega⟩ : Fin 8) s))
    * x3 (ix2 (⟨u.val / 128, by have := u.isLt; omega⟩ : Fin 8) s)

/-- The reset stores zero. -/
theorem reset_apply (y : S512x1024.Idx) : k0_pay2 (F := Ideal) y = 0 := by
  unfold k0_pay2
  rw [shapeCast_self]
  exact Ideal.ofBits_zero_f32

/-- The update at (r, s): the accumulator's entry plus the sum over u < 1024 of x[r, u] * w[u, s]. -/
theorem update_apply (x1 : Vec Ideal S128x1024 .i32) (x2 x3 : Vec Ideal S8x1024 .f32) (x0 acc : Vec Ideal S512x1024 .f32)
    (r : Fin 512) (s : Fin 1024) :
    k0_pay3 (F := Ideal) x1 x2 x3 x0 acc (ix2 r s) = acc (ix2 r s) + ∑ u : Fin 1024, x0 (ix2 r u) * wAt x1 x2 x3 u s := by
  unfold k0_pay3
  dsimp only
  rw [shapeCast_self, addf_apply]
  congr 1
  refine (congrFun (Cert.LibPlainDot.matmul_zero_eq_matProd dot_S512x1024_S1024x1024_S512x1024_1_0_0_1_n_n
    rfl rfl rfl rfl rfl rfl none _ _) (ix2 r s)).trans ?_
  rw [Cert.LibPlainDot.matProd_ix2]
  refine Finset.sum_congr rfl fun u _ => ?_
  rw [truncf_apply, truncf_apply, mulf_apply, subf_apply, sitofp_apply]
  simp only [shapeCast_self]
  rw [unpacked_apply, group_rows_apply, group_rows_apply]
  rfl

/-- The emit at (r, s): the accumulator's entry plus the bias row's entry s. -/
theorem emit_apply (a : Vec Ideal S512x1024 .f32) (x4 : Vec Ideal S1x1024 .f32) (r : Fin 512) (s : Fin 1024) :
    k0_pay1 (F := Ideal) a x4 (ix2 r s) = a (ix2 r s) + x4 (ix2 (0 : Fin 1) s) := by
  unfold k0_pay1
  rw [addf_apply, shapeCast_self, broadcastTo_1b_ab_apply]

end Cert.KernelIdeal.Pay

end
-- ==== Proof.KerHost.lean ====
/-
  What the host operations before the kernel's region leave in the two arrays they prepare for it.

  The zero-point table, 32 groups by 4096 output channels: the packed zero points are unpacked along the columns
  (column j = 8c + p is field p of packed column c), converted to floats, and one is added as a float. So its entry
  (g, j) is the field's integer value plus one. The bias, a vector of 4096 entries, is given a leading unit axis: the
  one row's entry j is bias entry j.
-/
import proofs.«417043_j86071144611916_3_alg».proof.Proof.Gen.KernelIdeal.Frame
import proofs.«417043_j86071144611916_3_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal

set_option maxRecDepth 16384

noncomputable section

namespace Cert.KernelIdeal.HostSide

open Cert.KernelIdeal Cert.KernelIdeal.Gen Idealize.ShloMosaic Idealize.ShloMosaic.TcCoe Idealize.SL.Sem
open Idealize.ShloMosaic.StableHlo Idealize.ShloMosaic.ValueIdx Cert.Dequant

/-- The host's zero-point table as one term of the packed zero points. -/
def zpTable (qz : IVec S32x512 32) : FVec Ideal S32x4096 .f32 :=
  addf
    (sitofp .f32
      (shapeCast S32x4096
        (andi
          (Host.shrsi
            (broadcastInDim S32x512x8 ![0, 1, 2] bcast_S32x512x1_S32x512x8_0_1_2
              (broadcastInDim S32x512x1 ![0, 1] bcast_S32x512_S32x512x1_0_1 qz))
            (broadcastInDim S32x512x8 ![0, 1, 2] bcast_S1x1x8_S32x512x8_0_1_2
              (broadcastInDim S1x1x8 ![0, 2] bcast_S1x8_S1x1x8_0_2
                (muli (iotaInDim S1x8 32 1) (broadcastInDim S1x8 ![] bcast_S_S1x8 (constantI S_ 32 4#32))))))
          (broadcastInDim S32x512x8 ![] bcast_S_S32x512x8 (constantI S_ 32 15#32)))
        shapeCasts_S32x512x8_S32x4096))
    (broadcastInDim S32x4096 ![] bcast_S_S32x4096 (constant (F := Ideal) S_ .f32 0x3F800000#32))

/-- Packed zero points given a trailing unit axis and repeated eight times along it: entry (g, cc, p) is word (g, cc). -/
theorem words_repeated (qz : IVec S32x512 32) (g : Fin 32) (cc : Fin 512) (p : Fin 8) :
    broadcastInDim S32x512x8 ![0, 1, 2] bcast_S32x512x1_S32x512x8_0_1_2
      (broadcastInDim S32x512x1 ![0, 1] bcast_S32x512_S32x512x1_0_1 qz) (ix3 g cc p) = qz (ix2 g cc) := by
  refine (broadcastInDim_apply _ _ _ (ix3 g cc p) (ix3 g cc (0 : Fin 1)) fun ax => ?_).trans ?_
  · match ax with
    | ⟨0, _⟩ => rfl
    | ⟨1, _⟩ => rfl
    | ⟨2, _⟩ => rfl
  · refine broadcastInDim_apply _ _ _ (ix3 g cc (0 : Fin 1)) (ix2 g cc) fun ax => ?_
    match ax with
    | ⟨0, _⟩ => rfl
    | ⟨1, _⟩ => rfl

/-- The shift amounts 0, 4, …, 28 laid along the last axis: entry (g, cc, p) is the word p times the word 4. -/
theorem amounts_last (g : Fin 32) (cc : Fin 512) (p : Fin 8) :
    broadcastInDim S32x512x8 ![0, 1, 2] bcast_S1x1x8_S32x512x8_0_1_2
      (broadcastInDim S1x1x8 ![0, 2] bcast_S1x8_S1x1x8_0_2
        (muli (iotaInDim S1x8 32 1) (broadcastInDim S1x8 ![] bcast_S_S1x8 (constantI S_ 32 4#32)))) (ix3 g cc p)
      = IntOp.muli (BitVec.ofNat 32 p.val) 4#32 := by
  refine (broadcastInDim_apply _ _ _ (ix3 g cc p) (ix3 (0 : Fin 1) (0 : Fin 1) p) fun ax => ?_).trans ?_
  · match ax with
    | ⟨0, _⟩ => rfl
    | ⟨1, _⟩ => rfl
    | ⟨2, _⟩ => rfl
  · refine (broadcastInDim_apply _ _ _ (ix3 (0 : Fin 1) (0 : Fin 1) p) (ix2 (0 : Fin 1) p) fun ax => ?_).trans ?_
    · match ax with
      | ⟨0, _⟩ => rfl
      | ⟨1, _⟩ => rfl
    · rfl

/-- The table's entry (g, j): the integer value of field j % 8 of packed word (g, j / 8), plus one. -/
theorem zpTable_apply (qz : IVec S32x512 32) (g : Fin 32) (j : Fin 4096) :
    zpTable qz (ix2 g j) = toR (zField qz g j) + 1 := by
  unfold zpTable
  rw [addf_apply, sitofp_apply]
  congr 1
  · show toR _ = _
    congr 1
    refine (shapeCast_apply _ shapeCasts_S32x512x8_S32x4096 (ix2 g j)
      (ix3 g (⟨j.val / 8, by have := j.isLt; omega⟩ : Fin 512) (⟨j.val % 8, Nat.mod_lt _ (by decide)⟩ : Fin 8)) ?_).trans ?_
    · rw [Shape.rowMajor_val_three, Shape.rowMajor_val_two]
      show (g.val * 512 + j.val / 8) * 8 + j.val % 8 = g.val * 4096 + j.val
      omega
    · show IntOp.andi (IntOp.shrsi .host
          (broadcastInDim S32x512x8 ![0, 1, 2] bcast_S32x512x1_S32x512x8_0_1_2
            (broadcastInDim S32x512x1 ![0, 1] bcast_S32x512_S32x512x1_0_1 qz) (ix3 g _ _))
          (broadcastInDim S32x512x8 ![0, 1, 2] bcast_S1x1x8_S32x512x8_0_1_2
            (broadcastInDim S1x1x8 ![0, 2] bcast_S1x8_S1x1x8_0_2
              (muli (iotaInDim S1x8 32 1) (broadcastInDim S1x8 ![] bcast_S_S1x8 (constantI S_ 32 4#32)))) (ix3 g _ _)))
          15#32 = _
      rw [words_repeated, amounts_last]
      exact andi_shrsi_field .host _ _
  · refine (broadcastInDim_apply _ _ _ (ix2 g j) ix0 fun ax => ax.elim0).trans ?_
    exact one_f32

variable (m : (ℓ : Loc nD τ sig) → Buf (Elt Ideal) ℓ)

/-- The region finds the zero-point table in the third window's array. -/
theorem found_zp (c : Dev nD) :
    (V m c main_v14 : S32x4096.Idx → EReal) = zpTable (m ((c : Thread nD τ).loc main_arg2)) := by
  dsimp only [Gen.V, Gen.hostOps0]
  after_results
  rfl

/-- The region finds the bias as one row in the fifth window's array: the row's entry j is bias entry j. -/
theorem found_bias (c : Dev nD) (j : Fin 4096) :
    (V m c main_v15 : S1x4096.Idx → EReal) (ix2 (0 : Fin 1) j) = m ((c : Thread nD τ).loc main_arg4) (ix1 j) := by
  have e : (V m c main_v15 : S1x4096.Idx → EReal)
      = shapeCast S1x4096 (m ((c : Thread nD τ).loc main_arg4)) shapeCasts_S4096_S1x4096 := by
    dsimp only [Gen.V, Gen.hostOps0]
    after_results
    rfl
  rw [e]
  exact shapeCast_a_1a_apply _ _ _ _

end Cert.KernelIdeal.HostSide

end
-- ==== Proof.KerBlocks.lean ====
/-
  The region's arrays and each grid point's input blocks, at their literal types, and each block entry as an entry of
  its array.

  The grid has 16 x 4 x 4 points; point t has row tile t / 16, column tile t / 4 % 4 and contraction step t % 4. At
  point t the x block is rows 512 (t / 16) + r, columns 1024 (t % 4) + u of x; the packed weight block is rows
  128 (t % 4) + a, columns 1024 (t / 4 % 4) + s; the zero-point and scale blocks are group rows 8 (t % 4) + g of the
  same columns; the bias block is those columns of the one bias row; the output block is rows 512 (t / 16) + r,
  columns 1024 (t / 4 % 4) + s.
-/
import proofs.«417043_j86071144611916_3_alg».proof.Proof.Gen.KernelIdeal.Frame
import Idealize.ShloMosaic.Lib.Pipeline.Value
import Idealize.ShloMosaic.Lib.ValueIdx
import Idealize.ShloMosaic.PureOps.Ideal

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The arrays as the region finds them. -/
abbrev xArr (c : Dev nD) : S8192x4096.Idx → EReal := V m c main_arg0
abbrev qwArr (c : Dev nD) : IVec S512x4096 32 := V m c main_arg1
abbrev zpArr (c : Dev nD) : S32x4096.Idx → EReal := V m c main_v14
abbrev scArr (c : Dev nD) : S32x4096.Idx → EReal := V m c main_arg3
abbrev bRow (c : Dev nD) : S1x4096.Idx → EReal := V m c main_v15

/-- Point t's input blocks. -/
abbrev xBlk (c : Dev nD) (t : Fin cfg0.N) : Vec Ideal S512x1024 .f32 := iblk m c 0 t
abbrev qwBlk (c : Dev nD) (t : Fin cfg0.N) : Vec Ideal S128x1024 .i32 := iblk m c 1 t
abbrev zpBlk (c : Dev nD) (t : Fin cfg0.N) : Vec Ideal S8x1024 .f32 := iblk m c 2 t
abbrev scBlk (c : Dev nD) (t : Fin cfg0.N) : Vec Ideal S8x1024 .f32 := iblk m c 3 t
abbrev bBlk (c : Dev nD) (t : Fin cfg0.N) : Vec Ideal S1x1024 .f32 := iblk m c 4 t

/-- The grid has 256 points. -/
theorem lt_points (t : Fin cfg0.N) : t.val < 256 := lt_of_lt_of_eq t.isLt (show cfg0.N = 256 from N_0)

/-- The printed index maps, decided once over the grid. -/
theorem idx_facts : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = t.val % 4 ∧ win0_2.index t (1 : Fin 2) = t.val / 4 % 4
    ∧ win0_3.index t (0 : Fin 2) = t.val % 4 ∧ win0_3.index t (1 : Fin 2) = t.val / 4 % 4
    ∧ win0_4.index t (0 : Fin 2) = 0 ∧ win0_4.index t (1 : Fin 2) = t.val / 4 % 4
    ∧ win0_5.index t (0 : Fin 2) = t.val / 16 ∧ win0_5.index t (1 : Fin 2) = t.val / 4 % 4 :=
  (by decide +kernel : ∀ t : Fin grid0.N, _)

/-- The x block's entry (r, u) is x at row 512 (t / 16) + r, column 1024 (t % 4) + u. -/
theorem xBlk_apply (c : Dev nD) (t : Fin cfg0.N) (r : Fin 512) (u : Fin 1024) :
    xBlk m c t (ix2 r u)
      = xArr m c (ix2 (⟨512 * (t.val / 16) + r.val, by have := lt_points t; have := r.isLt; omega⟩ : Fin 8192)
          (⟨1024 * (t.val % 4) + u.val, by have := u.isLt; omega⟩ : Fin 4096)) := by
  obtain ⟨e00, e01, -⟩ := idx_facts t
  show V m c main_arg0 (((cfg0.win 0).blk t).view.emb (ix2 r u)) = V m c main_arg0 _
  congr 1
  funext a
  apply Fin.ext
  match a with
  | ⟨0, _⟩ => show win0_0.index t (0 : Fin 2) * 512 + 1 * r.val = 512 * (t.val / 16) + r.val; omega
  | ⟨1, _⟩ => show win0_0.index t (1 : Fin 2) * 1024 + 1 * u.val = 1024 * (t.val % 4) + u.val; omega

/-- The packed weight block's entry (a, s) is the packed weight at row 128 (t % 4) + a, column 1024 (t / 4 % 4) + s. -/
theorem qwBlk_apply (c : Dev nD) (t : Fin cfg0.N) (a : Fin 128) (s : Fin 1024) :
    qwBlk m c t (ix2 a s)
      = qwArr m c (ix2 (⟨128 * (t.val % 4) + a.val, by have := a.isLt; omega⟩ : Fin 512)
          (⟨1024 * (t.val / 4 % 4) + s.val, by have := s.isLt; omega⟩ : Fin 4096)) := by
  obtain ⟨-, -, e10, e11, -⟩ := idx_facts t
  show V m c main_arg1 (((cfg0.win 1).blk t).view.emb (ix2 a s)) = V m c main_arg1 _
  congr 1
  funext ax
  apply Fin.ext
  match ax with
  | ⟨0, _⟩ => show win0_1.index t (0 : Fin 2) * 128 + 1 * a.val = 128 * (t.val % 4) + a.val; omega
  | ⟨1, _⟩ => show win0_1.index t (1 : Fin 2) * 1024 + 1 * s.val = 1024 * (t.val / 4 % 4) + s.val; omega

/-- The zero-point block's entry (g, s) is the table at group row 8 (t % 4) + g, column 1024 (t / 4 % 4) + s. -/
theorem zpBlk_apply (c : Dev nD) (t : Fin cfg0.N) (g : Fin 8) (s : Fin 1024) :
    zpBlk m c t (ix2 g s)
      = zpArr m c (ix2 (⟨8 * (t.val % 4) + g.val, by have := g.isLt; omega⟩ : Fin 32)
          (⟨1024 * (t.val / 4 % 4) + s.val, by have := s.isLt; omega⟩ : Fin 4096)) := by
  obtain ⟨-, -, -, -, e20, e21, -⟩ := idx_facts t
  show V m c main_v14 (((cfg0.win 2).blk t).view.emb (ix2 g s)) = V m c main_v14 _
  congr 1
  funext ax
  apply Fin.ext
  match ax with
  | ⟨0, _⟩ => show win0_2.index t (0 : Fin 2) * 8 + 1 * g.val = 8 * (t.val % 4) + g.val; omega
  | ⟨1, _⟩ => show win0_2.index t (1 : Fin 2) * 1024 + 1 * s.val = 1024 * (t.val / 4 % 4) + s.val; omega

/-- The scale block's entry (g, s) is the scales at group row 8 (t % 4) + g, column 1024 (t / 4 % 4) + s. -/
theorem scBlk_apply (c : Dev nD) (t : Fin cfg0.N) (g : Fin 8) (s : Fin 1024) :
    scBlk m c t (ix2 g s)
      = scArr m c (ix2 (⟨8 * (t.val % 4) + g.val, by have := g.isLt; omega⟩ : Fin 32)
          (⟨1024 * (t.val / 4 % 4) + s.val, by have := s.isLt; omega⟩ : Fin 4096)) := by
  obtain ⟨-, -, -, -, -, -, e30, e31, -⟩ := idx_facts t
  show V m c main_arg3 (((cfg0.win 3).blk t).view.emb (ix2 g s)) = V m c main_arg3 _
  congr 1
  funext ax
  apply Fin.ext
  match ax with
  | ⟨0, _⟩ => show win0_3.index t (0 : Fin 2) * 8 + 1 * g.val = 8 * (t.val % 4) + g.val; omega
  | ⟨1, _⟩ => show win0_3.index t (1 : Fin 2) * 1024 + 1 * s.val = 1024 * (t.val / 4 % 4) + s.val; omega

/-- The bias block's entry (0, s) is the bias row at column 1024 (t / 4 % 4) + s. -/
theorem bBlk_apply (c : Dev nD) (t : Fin cfg0.N) (s : Fin 1024) :
    bBlk m c t (ix2 (0 : Fin 1) s)
      = bRow m c (ix2 (0 : Fin 1) (⟨1024 * (t.val / 4 % 4) + s.val, by have := s.isLt; omega⟩ : Fin 4096)) := by
  obtain ⟨-, -, -, -, -, -, -, -, e40, e41, -⟩ := idx_facts t
  show V m c main_v15 (((cfg0.win 4).blk t).view.emb (ix2 (0 : Fin 1) s)) = V m c main_v15 _
  congr 1
  funext ax
  apply Fin.ext
  match ax with
  | ⟨0, _⟩ => show win0_4.index t (0 : Fin 2) * 1 + 1 * 0 = 0; omega
  | ⟨1, _⟩ => show win0_4.index t (1 : Fin 2) * 1024 + 1 * s.val = 1024 * (t.val / 4 % 4) + s.val; omega

end Cert.KernelIdeal.Blocks

end
-- ==== Proof.KerFold.lean ====
/-
  The accumulator along one run of the contraction axis, and each point's product in terms of the whole arrays.

  Point n adds to the accumulator the product of its x block with its block of dequantized weight: entry (r, s) goes up
  by term n (r, s), the sum over u < 1024 of x[512 (n / 16) + r, 1024 (n % 4) + u] * W[1024 (n % 4) + u,
  1024 (n / 4 % 4) + s]. The first point of a run (n % 4 = 0) starts from zero; the two after it add to what the point
  before left. So before the run's last point the accumulator is zero plus the first three points' terms.
-/
import proofs.«417043_j86071144611916_3_alg».proof.Proof.Gen.KernelIdeal.Value
import proofs.«417043_j86071144611916_3_alg».proof.Proof.Spec
import proofs.«417043_j86071144611916_3_alg».proof.Proof.KerPieces
import proofs.«417043_j86071144611916_3_alg».proof.Proof.KerPay
import proofs.«417043_j86071144611916_3_alg».proof.Proof.KerHost
import proofs.«417043_j86071144611916_3_alg».proof.Proof.KerBlocks

set_option maxRecDepth 16384

noncomputable section

namespace Cert.KernelIdeal.Fold

open Cert.KernelIdeal Cert.KernelIdeal.Gen Idealize.ShloMosaic Idealize.ShloMosaic.TcCoe Idealize.SL.Sem
open Idealize.ShloMosaic.ValueIdx Cert.Dequant Cert.KernelIdeal.Blocks Cert.KernelIdeal.Pay

variable (m : (ℓ : Loc nD τ sig) → Buf (Elt Ideal) ℓ)

/-- The five argument arrays as launched, at their literal types. -/
abbrev xIn (c : Dev nD) : S8192x4096.Idx → EReal := m ((c : Thread nD τ).loc main_arg0)
abbrev qwIn (c : Dev nD) : IVec S512x4096 32 := m ((c : Thread nD τ).loc main_arg1)
abbrev qzIn (c : Dev nD) : IVec S32x512 32 := m ((c : Thread nD τ).loc main_arg2)
abbrev scIn (c : Dev nD) : S32x4096.Idx → EReal := m ((c : Thread nD τ).loc main_arg3)
abbrev bIn (c : Dev nD) : S4096.Idx → EReal := m ((c : Thread nD τ).loc main_arg4)

/-- Point n's product at entry (r, s) of the block, over the point's blocks; zero past the grid. -/
def termAt (c : Dev nD) (n : ℕ) (r : Fin 512) (s : Fin 1024) : EReal :=
  if h : n < cfg0.N then
    ∑ u : Fin 1024, xBlk m c ⟨n, h⟩ (ix2 r u) * wAt (qwBlk m c ⟨n, h⟩) (zpBlk m c ⟨n, h⟩) (scBlk m c ⟨n, h⟩) u s
  else 0

/-- The same as a function of the block index. -/
def term (c : Dev nD) (n : ℕ) : S512x1024.Idx → EReal := fun y => termAt m c n (y 0) (y 1)

theorem term_ix2 (c : Dev nD) (n : ℕ) (r : Fin 512) (s : Fin 1024) : term m c n (ix2 r s) = termAt m c n r s := rfl

/-! ## The block's dequantized weight is the whole arrays' -/

/-- Row 1024 k + u of the dequantized weight is assembled from packed row 128 k + u / 8, field u % 8, and group
    8 k + u / 128. -/
theorem W_of_block (qw : IVec S512x4096 32) (qz : IVec S32x512 32) (sc : S32x4096.Idx → EReal) (k j : ℕ)
    (hk : k < 4) (hj : j < 4) (u s : Fin 1024) :
    (toR (nib (qw (ix2 (⟨128 * k + u.val / 8, by have := u.isLt; omega⟩ : Fin 512)
          (⟨1024 * j + s.val, by have := s.isLt; omega⟩ : Fin 4096))) ⟨u.val % 8, Nat.mod_lt _ (by decide)⟩)
        - (toR (zField qz (⟨8 * k + u.val / 128, by have := u.isLt; omega⟩ : Fin 32)
            (⟨1024 * j + s.val, by have := s.isLt; omega⟩ : Fin 4096)) + 1))
      * sc (ix2 (⟨8 * k + u.val / 128, by have := u.isLt; omega⟩ : Fin 32)
          (⟨1024 * j + s.val, by have := s.isLt; omega⟩ : Fin 4096))
    = W qw qz sc (⟨1024 * k + u.val, by have := u.isLt; omega⟩ : Fin 4096)
        (⟨1024 * j + s.val, by have := s.isLt; omega⟩ : Fin 4096) := by
  have hq : (⟨(1024 * k + u.val) / 8, by have := u.isLt; omega⟩ : Fin 512)
      = ⟨128 * k + u.val / 8, by have := u.isLt; omega⟩ := Fin.ext (by show (1024 * k + u.val) / 8 = 128 * k + u.val / 8; omega)
  have hp : (⟨(1024 * k + u.val) % 8, Nat.mod_lt _ (by decide)⟩ : Fin 8)
      = ⟨u.val % 8, Nat.mod_lt _ (by decide)⟩ := Fin.ext (by show (1024 * k + u.val) % 8 = u.val % 8; omega)
  have hg : (⟨(1024 * k + u.val) / 128, by have := u.isLt; omega⟩ : Fin 32)
      = ⟨8 * k + u.val / 128, by have := u.isLt; omega⟩ := Fin.ext (by show (1024 * k + u.val) / 128 = 8 * k + u.val / 128; omega)
  show _ = (toR (nib (qw (ix2 (⟨(1024 * k + u.val) / 8, _⟩ : Fin 512) _)) ⟨(1024 * k + u.val) % 8, _⟩)
      - (toR (zField qz (⟨(1024 * k + u.val) / 128, _⟩ : Fin 32) _) + 1)) * sc (ix2 (⟨(1024 * k + u.val) / 128, _⟩ : Fin 32) _)
  rw [hq, hp, hg]

/-- Point n's product in terms of the arguments: x's rows of the point's row tile against the dequantized weight's
    rows of the point's contraction step and columns of its column tile. -/
theorem termAt_global (c : Dev nD) (n : ℕ) (hn : n < cfg0.N) (r : Fin 512) (s : Fin 1024) :
    termAt m c n r s
      = ∑ u : Fin 1024,
          xIn m c
              (ix2 (⟨512 * (n / 16) + r.val, by
                  have h256 : n < 256 := lt_of_lt_of_eq hn (show cfg0.N = 256 from N_0)
                  have := r.isLt; omega⟩ : Fin 8192)
                (⟨1024 * (n % 4) + u.val, by have := u.isLt; omega⟩ : Fin 4096))
            * W (qwIn m c) (qzIn m c) (scIn m c)
                (⟨1024 * (n % 4) + u.val, by have := u.isLt; omega⟩ : Fin 4096)
                (⟨1024 * (n / 4 % 4) + s.val, by have := s.isLt; omega⟩ : Fin 4096) := by
  unfold termAt
  rw [dif_pos hn]
  refine Finset.sum_congr rfl fun u _ => ?_
  rw [xBlk_apply m c ⟨n, hn⟩ r u]
  unfold wAt
  rw [qwBlk_apply m c ⟨n, hn⟩, zpBlk_apply m c ⟨n, hn⟩, scBlk_apply m c ⟨n, hn⟩]
  unfold xArr qwArr zpArr scArr
  rw [V_main_arg0, V_main_arg1, V_main_arg3, HostSide.found_zp, HostSide.zpTable_apply]
  exact congrArg _ (W_of_block _ _ _ (n % 4) (n / 4 % 4) (Nat.mod_lt _ (by decide)) (Nat.mod_lt _ (by decide)) u s)

/-! ## The accumulator's steps, and its contents before a run's last point -/

/-- A first point of a run leaves zero plus its term. -/
theorem step_first (c : Dev nD) (n : ℕ) (hb : n < cfg0.N) (h0 : n % 4 = 0) (acc : Vec Ideal S512x1024 .f32)
    (y : S512x1024.Idx) : Value.scAt0_0 m c n hb acc y = 0 + term m c n y := by
  obtain ⟨r, s, rfl⟩ : ∃ (r : Fin 512) (s : Fin 1024), y = ix2 r s := ⟨y 0, y 1, eq_ix2 y⟩
  unfold Value.scAt0_0
  rw [dif_pos h0, dif_neg (by omega)]
  refine (congrFun (Pieces.scratch_first c (grid0.coords (⟨n, hb⟩ : Fin cfg0.N)) (ms0_0 ⟨n, hb⟩) (hs0_0 ⟨n, hb⟩)
    (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩)
    (hs0_4 ⟨n, hb⟩) (ms0_5 ⟨n, hb⟩) (hs0_5 ⟨n, hb⟩) scM0_0 (Memref.isWhole_whole _) _ _
    (xBlk m c ⟨n, hb⟩) (qwBlk m c ⟨n, hb⟩) (zpBlk m c ⟨n, hb⟩) (scBlk m c ⟨n, hb⟩) (bBlk m c ⟨n, hb⟩)) (ix2 r s)).trans ?_
  refine (update_apply (qwBlk m c ⟨n, hb⟩) (zpBlk m c ⟨n, hb⟩) (scBlk m c ⟨n, hb⟩) (xBlk m c ⟨n, hb⟩) _ r s).trans ?_
  rw [reset_apply, term_ix2]
  unfold termAt
  rw [dif_pos hb]

/-- A later point that is not the run's last adds its term to what the point before left. -/
theorem step_later (c : Dev nD) (n : ℕ) (hb : n < cfg0.N) (h0 : ¬n % 4 = 0) (h1 : ¬n % 4 = 3)
    (acc : Vec Ideal S512x1024 .f32) (y : S512x1024.Idx) :
    Value.scAt0_0 m c n hb acc y = acc y + term m c n y := by
  obtain ⟨r, s, rfl⟩ : ∃ (r : Fin 512) (s : Fin 1024), y = ix2 r s := ⟨y 0, y 1, eq_ix2 y⟩
  unfold Value.scAt0_0
  rw [dif_neg h0, dif_neg h1]
  refine (congrFun (Pieces.scratch_later c (grid0.coords (⟨n, hb⟩ : Fin cfg0.N)) (ms0_0 ⟨n, hb⟩) (hs0_0 ⟨n, hb⟩)
    (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩)
    (hs0_4 ⟨n, hb⟩) (ms0_5 ⟨n, hb⟩) (hs0_5 ⟨n, hb⟩) scM0_0 (Memref.isWhole_whole _) _ _
    (xBlk m c ⟨n, hb⟩) (qwBlk m c ⟨n, hb⟩) (zpBlk m c ⟨n, hb⟩) (scBlk m c ⟨n, hb⟩) (bBlk m c ⟨n, hb⟩) acc) (ix2 r s)).trans ?_
  refine (update_apply (qwBlk m c ⟨n, hb⟩) (zpBlk m c ⟨n, hb⟩) (scBlk m c ⟨n, hb⟩) (xBlk m c ⟨n, hb⟩) acc r s).trans ?_
  rw [term_ix2]
  unfold termAt
  rw [dif_pos hb]

/-- The fold does not depend on how its starting point and length are spelt. -/
theorem accAt_congr {α : Type} {N : ℕ} (a : (n : ℕ) → n < N → α) (g : (n : ℕ) → n < N → α → α) (b b' j j' : ℕ)
    (hb : b = b') (hj : j = j') (h : b + j < N) (h' : b' + j' < N) :
    Pipeline.accAt a g b j h = Pipeline.accAt a g b' j' h' := by
  subst hb; subst hj; rfl

/-- Before the last point t of a run the accumulator holds zero plus the terms of the run's first three points. -/
theorem scratch_before_last (c : Dev nD) (t : Fin cfg0.N) (h3 : t.val % 4 = 3) (H : t.val - 1 < cfg0.N)
    (y : S512x1024.Idx) :
    (outsAt0 m c (t.val - 1) H).2 y = 0 + ∑ s ∈ Finset.range 3, term m c (t.val - 3 + s) y := by
  have ht := lt_points t
  have hN : cfg0.N = 256 := N_0
  have e := congrFun (Value.soutsAt0_0_eq m c (⟨t.val - 1, H⟩ : Fin cfg0.N)) y
  refine e.trans ?_
  rw [accAt_congr _ _ (4 * ((t.val - 1) / 4)) (t.val - 3) ((t.val - 1) % 4) 2 (by omega) (by omega) _ (by omega)]
  exact Pipeline.accAt_add_apply _ _ (fun _ => (0 : EReal)) (term m c) (t.val - 3) 2
    (fun h i => step_first m c (t.val - 3) h (by omega) _ i)
    (fun n h acc i hlo hhi => step_later m c n h (by omega) (by omega) acc i)
    2 (le_refl 2) (by omega) y

end Cert.KernelIdeal.Fold

end
-- ==== Proof.KerFinal.lean ====
/-
  The kernel's result array as one function of the arguments.

  The output block of row tile i, column tile j is written back once, at the last point of the run along the
  contraction axis (t % 4 = 3). There the block's entry (r, s) is the accumulator before that point, plus the point's
  own term, plus the bias: zero plus the four terms of the run plus bias[1024 j + s]. The four terms are the sums over
  u < 1024 of x[512 i + r, 1024 k + u] * W[1024 k + u, 1024 j + s] for k = 0, 1, 2, 3, and a sum over 4096 = 4 * 1024
  entries taken step by step is the whole sum: the entry is out[512 i + r, 1024 j + s]. Every index of the
  8192 x 4096 result lies in the block of the last point of its tiles' run, so the array is out.
-/
import proofs.«417043_j86071144611916_3_alg».proof.Proof.Gen.KernelIdeal.Value
import proofs.«417043_j86071144611916_3_alg».proof.Proof.Spec
import proofs.«417043_j86071144611916_3_alg».proof.Proof.LibIdxSums
import proofs.«417043_j86071144611916_3_alg».proof.Proof.KerPieces
import proofs.«417043_j86071144611916_3_alg».proof.Proof.KerPay
import proofs.«417043_j86071144611916_3_alg».proof.Proof.KerHost
import proofs.«417043_j86071144611916_3_alg».proof.Proof.KerBlocks
import proofs.«417043_j86071144611916_3_alg».proof.Proof.KerFold

set_option maxRecDepth 16384

noncomputable section

namespace Cert.KernelIdeal.Final

open Cert.KernelIdeal Cert.KernelIdeal.Gen Idealize.ShloMosaic Idealize.ShloMosaic.TcCoe Idealize.SL.Sem
open Idealize.ShloMosaic.ValueIdx Cert.Dequant Cert.KernelIdeal.Blocks Cert.KernelIdeal.Pay Cert.KernelIdeal.Fold
open Idealize.ShloMosaic.Pipeline (Dat)

variable (m : (ℓ : Loc nD τ sig) → Buf (Elt Ideal) ℓ) (ρ : Dev nD → PrngReg)

/-- The result as a function of the five arguments as launched. -/
abbrev result (c : Dev nD) : S8192x4096.Idx → EReal :=
  Cert.Dequant.out (xIn m c) (qwIn m c) (qzIn m c) (scIn m c) (bIn m c)

/-- A sum over 4096 entries taken in four steps of 1024. -/
theorem sum_by_steps (f : Fin 4096 → EReal) :
    ∑ a, f a = ∑ k : Fin 4, ∑ u : Fin 1024, f ⟨1024 * k.val + u.val, by have := k.isLt; have := u.isLt; omega⟩ := by
  refine (Cert.IdxSums.sum_fin_mul 4 1024 f).trans ?_
  refine Finset.sum_congr rfl fun k _ => Finset.sum_congr rfl fun u _ => congrArg f (Fin.ext ?_)
  show k.val * 1024 + u.val = 1024 * k.val + u.val
  omega

/-- The point's own term, at the point. -/
theorem term_self (c : Dev nD) (t : Fin cfg0.N) (n : ℕ) (hn : n = t.val) (r : Fin 512) (s : Fin 1024) :
    term m c n (ix2 r s)
      = ∑ u : Fin 1024, xBlk m c t (ix2 r u) * wAt (qwBlk m c t) (zpBlk m c t) (scBlk m c t) u s := by
  subst hn
  rw [term_ix2]
  unfold termAt
  rw [dif_pos t.isLt]

/-- The four terms of the run that ends at point t add up to the whole contraction. -/
theorem run_sum (c : Dev nD) (t : Fin cfg0.N) (h3 : t.val % 4 = 3) (r : Fin 512) (s : Fin 1024) :
    ∑ k ∈ Finset.range 4, term m c (t.val - 3 + k) (ix2 r s)
      = ∑ a : Fin 4096,
          xIn m c (ix2 (⟨512 * (t.val / 16) + r.val, by have := lt_points t; have := r.isLt; omega⟩ : Fin 8192) a)
            * W (qwIn m c) (qzIn m c) (scIn m c) a
                (⟨1024 * (t.val / 4 % 4) + s.val, by have := s.isLt; omega⟩ : Fin 4096) := by
  have ht := lt_points t
  have hN : cfg0.N = 256 := N_0
  rw [sum_by_steps, Finset.sum_range]
  refine Finset.sum_congr rfl fun k _ => ?_
  have hk := k.isLt
  rw [term_ix2, termAt_global m c (t.val - 3 + k.val) (by omega) r s]
  refine Finset.sum_congr rfl fun u _ => ?_
  have hu := u.isLt
  have hr := r.isLt
  have hs := s.isLt
  have e1 : (⟨512 * ((t.val - 3 + k.val) / 16) + r.val, by omega⟩ : Fin 8192)
      = ⟨512 * (t.val / 16) + r.val, by omega⟩ := Fin.ext (by show 512 * ((t.val - 3 + k.val) / 16) + r.val = 512 * (t.val / 16) + r.val; omega)
  have e2 : (⟨1024 * ((t.val - 3 + k.val) % 4) + u.val, by omega⟩ : Fin 4096)
      = ⟨1024 * k.val + u.val, by omega⟩ := Fin.ext (by show 1024 * ((t.val - 3 + k.val) % 4) + u.val = 1024 * k.val + u.val; omega)
  have e3 : (⟨1024 * ((t.val - 3 + k.val) / 4 % 4) + s.val, by omega⟩ : Fin 4096)
      = ⟨1024 * (t.val / 4 % 4) + s.val, by omega⟩ := Fin.ext (by show 1024 * ((t.val - 3 + k.val) / 4 % 4) + s.val = 1024 * (t.val / 4 % 4) + s.val; omega)
  rw [e1, e2, e3]

/-- The output block's entry (r, s) at point t lies at row 512 (t / 16) + r, column 1024 (t / 4 % 4) + s of the result. -/
theorem out_emb (t : Fin cfg0.N) (r : Fin 512) (s : Fin 1024) :
    ((cfg0.win 5).blk t).view.emb (ix2 r s)
      = ix2 (⟨512 * (t.val / 16) + r.val, by have := lt_points t; have := r.isLt; omega⟩ : Fin 8192)
          (⟨1024 * (t.val / 4 % 4) + s.val, by have := s.isLt; omega⟩ : Fin 4096) := by
  obtain ⟨-, -, -, -, -, -, -, -, -, -, e50, e51⟩ := idx_facts t
  funext a
  apply Fin.ext
  match a with
  | ⟨0, _⟩ => show win0_5.index t (0 : Fin 2) * 512 + 1 * r.val = 512 * (t.val / 16) + r.val; omega
  | ⟨1, _⟩ => show win0_5.index t (1 : Fin 2) * 1024 + 1 * s.val = 1024 * (t.val / 4 % 4) + s.val; omega

/-- WHAT A WRITE-BACK WRITES: at a point that writes the output block back, the block of the result. -/
theorem flushed_eq (c : Dev nD) (t : Fin cfg0.N) (hf : (cfg0.win 5).flush t = true) :
    (dats m 0 c).flushed 5 t = ((cfg0.win 5).blk t).view.read (Elt Ideal) (result m c) := by
  have h3 : t.val % 4 = 3 := (flush0_5 t).mp hf
  have ht := lt_points t
  have H : t.val - 1 < cfg0.N := Nat.lt_of_le_of_lt (Nat.sub_le _ _) t.isLt
  rw [Value.flushed5_C m c t (by omega) h3]
  rw [Pieces.out_last c (grid0.coords t) (ms0_0 t) (hs0_0 t) (ms0_1 t) (hs0_1 t) (ms0_2 t) (hs0_2 t) (ms0_3 t) (hs0_3 t)
    (ms0_4 t) (hs0_4 t) (ms0_5 t) (hs0_5 t) scM0_0 (Memref.isWhole_whole _) _ _
    (xBlk m c t) (qwBlk m c t) (zpBlk m c t) (scBlk m c t) (bBlk m c t) (outsAt0 m c (t.val - 1) H).2]
  funext y
  show k0_pay1 (F := Ideal) (k0_pay3 (qwBlk m c t) (zpBlk m c t) (scBlk m c t) (xBlk m c t) (outsAt0 m c (t.val - 1) H).2)
      (bBlk m c t) y = result m c (((cfg0.win 5).blk t).view.emb y)
  obtain ⟨r, s, rfl⟩ : ∃ (r : Fin 512) (s : Fin 1024), y = ix2 r s := ⟨y 0, y 1, eq_ix2 y⟩
  rw [emit_apply, update_apply, scratch_before_last m c t h3 H (ix2 r s), out_emb t r s]
  refine Eq.trans ?_ (out_ix2 (xIn m c) (qwIn m c) (qzIn m c) (scIn m c) (bIn m c) _ _).symm
  congr 1
  · rw [← term_self m c t (t.val - 3 + 3) (by omega) r s, zero_add,
      ← Finset.sum_range_succ (fun k => term m c (t.val - 3 + k) (ix2 r s)) 3]
    exact run_sum m c t h3 r s
  · rw [bBlk_apply m c t s]
    exact HostSide.found_bias m c _

/-- An index of the result is in point t's output block iff each coordinate is in the block's range on its axis. -/
theorem mem_blk (t : Fin cfg0.N) (i : S8192x4096.Idx) :
    i ∈ ((cfg0.win 5).blk t).view.set ↔ ∀ a : Fin 2, win0_5.index t a * S512x1024.size a ≤ (i a).val
      ∧ (i a).val < win0_5.index t a * S512x1024.size a + S512x1024.size a := by
  show i ∈ ((View.whole main_v16).slice (win0_5.rect t)).set ↔ _
  rw [View.set_slice_whole, Rect.mem_set_unit]
  exact Iff.rfl

/-- Every index of the result is in the block of the last point of its tiles' run. -/
theorem cover (i : S8192x4096.Idx) :
    ∃ t : Fin cfg0.N, (cfg0.win 5).flush t = true ∧ i ∈ ((cfg0.win 5).blk t).view.set := by
  have hi0 : (i 0).val < 8192 := (i 0).isLt
  have hi1 : (i 1).val < 4096 := (i 1).isLt
  have hN : cfg0.N = 256 := N_0
  let t : Fin cfg0.N := ⟨16 * ((i 0).val / 512) + 4 * ((i 1).val / 1024) + 3, by omega⟩
  have htv : t.val = 16 * ((i 0).val / 512) + 4 * ((i 1).val / 1024) + 3 := rfl
  obtain ⟨-, -, -, -, -, -, -, -, -, -, e50, e51⟩ := idx_facts t
  refine ⟨t, (flush0_5 t).mpr (by omega), ?_⟩
  rw [mem_blk]
  intro a
  match a with
  | ⟨0, _⟩ =>
    show win0_5.index t (0 : Fin 2) * 512 ≤ (i 0).val ∧ (i 0).val < win0_5.index t (0 : Fin 2) * 512 + 512
    omega
  | ⟨1, _⟩ =>
    show win0_5.index t (1 : Fin 2) * 1024 ≤ (i 1).val ∧ (i 1).val < win0_5.index t (1 : Fin 2) * 1024 + 1024
    omega

/-- THE ARRAY after the run is the result. -/
theorem final (c : Dev nD) : (dats m 0 c).arrAt 5 cfg0.N = result m c :=
  (dats m 0 c).arrAt_eq_of_cover 5 (result m c) (fun t hf => flushed_eq m c t hf) cover

/-- The kernel's run: every weakly fair execution terminates with the result array at out of the arguments, the
    arguments unchanged. -/
theorem run : θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Final

end
-- ==== Proof.RefRun.lean ====
/-
  The reference program's run. Its entry function is a straight line of host operations once the two
  module-local calls it makes (the floor division, which itself calls the three-way select) are written in
  place over the buffers each call names. The line is listed, shown to be the printed function, and run:
  every weakly fair execution ends with the result buffer holding one function of the five argument arrays,
  `refTerm`, the arguments unchanged.

  `refTerm` is the operations' composition, named in stages: the eight shift amounts; the weight words'
  four-bit fields laid out as 4096 rows; the zero-point words' fields laid out as 4096 columns, plus one; the
  row index per input channel (the channel number floor-divided by 128, wrapped once if negative, as a column
  of words); and last the product of x with (fields - gathered zero points) * gathered scales, plus the bias
  broadcast along the rows.
-/
import proofs.«417043_j86071144611916_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem
  Idealize.ShloMosaic.StableHlo

variable {F : FTy → Type} [FloatOps F]

/-! ## The straight line -/

/-- The entry function's operations in order, each call's operations in its place: the floor division's
    sixteen run over the record `main_call0` on the channel iota and the constant 128, and its select over
    `main_call0.call0`, whose one buffer is the entry function's value 25. -/
abbrev ops : List (HloOp τ sig (Elt F)) :=
  [
    nullary main_v0 (iotaInDim S8 32 0),
    nullary main_c (constantI S_ 32 4#32),
    unary main_c main_v1 (broadcastInDim S8 ![] bcast_S_S8 : (⟨S_, .i32⟩ : BufTy).Contents (Elt F) → (⟨S8, .i32⟩ : BufTy).Contents (Elt F)),
    binary main_v0 main_v1 main_v2 (muli : (⟨S8, .i32⟩ : BufTy).Contents (Elt F) → (⟨S8, .i32⟩ : BufTy).Contents (Elt F) → (⟨S8, .i32⟩ : BufTy).Contents (Elt F)),
    unary main_arg1 main_v3 (broadcastInDim S512x1x4096 ![0, 2] bcast_S512x4096_S512x1x4096_0_2 : (⟨S512x4096, .i32⟩ : BufTy).Contents (Elt F) → (⟨S512x1x4096, .i32⟩ : BufTy).Contents (Elt F)),
    unary main_v2 main_v4 (broadcastInDim S1x8x1 ![1] bcast_S8_S1x8x1_1 : (⟨S8, .i32⟩ : BufTy).Contents (Elt F) → (⟨S1x8x1, .i32⟩ : BufTy).Contents (Elt F)),
    unary main_v3 main_v5 (broadcastInDim S512x8x4096 ![0, 1, 2] bcast_S512x1x4096_S512x8x4096_0_1_2 : (⟨S512x1x4096, .i32⟩ : BufTy).Contents (Elt F) → (⟨S512x8x4096, .i32⟩ : BufTy).Contents (Elt F)),
    unary main_v4 main_v6 (broadcastInDim S512x8x4096 ![0, 1, 2] bcast_S1x8x1_S512x8x4096_0_1_2 : (⟨S1x8x1, .i32⟩ : BufTy).Contents (Elt F) → (⟨S512x8x4096, .i32⟩ : BufTy).Contents (Elt F)),
    binary main_v5 main_v6 main_v7 (Host.shrsi : (⟨S512x8x4096, .i32⟩ : BufTy).Contents (Elt F) → (⟨S512x8x4096, .i32⟩ : BufTy).Contents (Elt F) → (⟨S512x8x4096, .i32⟩ : BufTy).Contents (Elt F)),
    nullary main_c_0 (constantI S_ 32 15#32),
    unary main_c_0 main_v8 (broadcastInDim S512x8x4096 ![] bcast_S_S512x8x4096 : (⟨S_, .i32⟩ : BufTy).Contents (Elt F) → (⟨S512x8x4096, .i32⟩ : BufTy).Contents (Elt F)),
    binary main_v7 main_v8 main_v9 (andi : (⟨S512x8x4096, .i32⟩ : BufTy).Contents (Elt F) → (⟨S512x8x4096, .i32⟩ : BufTy).Contents (Elt F) → (⟨S512x8x4096, .i32⟩ : BufTy).Contents (Elt F)),
    reshape main_v9 main_v10 rfl shapeCasts_S512x8x4096_S4096x4096,
    nullary main_v11 (iotaInDim S8 32 0),
    nullary main_c_1 (constantI S_ 32 4#32),
    unary main_c_1 main_v12 (broadcastInDim S8 ![] bcast_S_S8 : (⟨S_, .i32⟩ : BufTy).Contents (Elt F) → (⟨S8, .i32⟩ : BufTy).Contents (Elt F)),
    binary main_v11 main_v12 main_v13 (muli : (⟨S8, .i32⟩ : BufTy).Contents (Elt F) → (⟨S8, .i32⟩ : BufTy).Contents (Elt F) → (⟨S8, .i32⟩ : BufTy).Contents (Elt F)),
    unary main_arg2 main_v14 (broadcastInDim S32x512x1 ![0, 1] bcast_S32x512_S32x512x1_0_1 : (⟨S32x512, .i32⟩ : BufTy).Contents (Elt F) → (⟨S32x512x1, .i32⟩ : BufTy).Contents (Elt F)),
    unary main_v13 main_v15 (broadcastInDim S1x1x8 ![2] bcast_S8_S1x1x8_2 : (⟨S8, .i32⟩ : BufTy).Contents (Elt F) → (⟨S1x1x8, .i32⟩ : BufTy).Contents (Elt F)),
    unary main_v14 main_v16 (broadcastInDim S32x512x8 ![0, 1, 2] bcast_S32x512x1_S32x512x8_0_1_2 : (⟨S32x512x1, .i32⟩ : BufTy).Contents (Elt F) → (⟨S32x512x8, .i32⟩ : BufTy).Contents (Elt F)),
    unary main_v15 main_v17 (broadcastInDim S32x512x8 ![0, 1, 2] bcast_S1x1x8_S32x512x8_0_1_2 : (⟨S1x1x8, .i32⟩ : BufTy).Contents (Elt F) → (⟨S32x512x8, .i32⟩ : BufTy).Contents (Elt F)),
    binary main_v16 main_v17 main_v18 (Host.shrsi : (⟨S32x512x8, .i32⟩ : BufTy).Contents (Elt F) → (⟨S32x512x8, .i32⟩ : BufTy).Contents (Elt F) → (⟨S32x512x8, .i32⟩ : BufTy).Contents (Elt F)),
    nullary main_c_2 (constantI S_ 32 15#32),
    unary main_c_2 main_v19 (broadcastInDim S32x512x8 ![] bcast_S_S32x512x8 : (⟨S_, .i32⟩ : BufTy).Contents (Elt F) → (⟨S32x512x8, .i32⟩ : BufTy).Contents (Elt F)),
    binary main_v18 main_v19 main_v20 (andi : (⟨S32x512x8, .i32⟩ : BufTy).Contents (Elt F) → (⟨S32x512x8, .i32⟩ : BufTy).Contents (Elt F) → (⟨S32x512x8, .i32⟩ : BufTy).Contents (Elt F)),
    reshape main_v20 main_v21 rfl shapeCasts_S32x512x8_S32x4096,
    nullary main_c_3 (constantI S_ 32 1#32),
    unary main_c_3 main_v22 (broadcastInDim S32x4096 ![] bcast_S_S32x4096 : (⟨S_, .i32⟩ : BufTy).Contents (Elt F) → (⟨S32x4096, .i32⟩ : BufTy).Contents (Elt F)),
    binary main_v21 main_v22 main_v23 (addi : (⟨S32x4096, .i32⟩ : BufTy).Contents (Elt F) → (⟨S32x4096, .i32⟩ : BufTy).Contents (Elt F) → (⟨S32x4096, .i32⟩ : BufTy).Contents (Elt F)),
    nullary main_v24 (iotaInDim S4096 32 0),
    nullary main_c_4 (constantI S_ 32 128#32),
    TRef.unary (TRef.of main_c_4 : TRef sig ⟨S_, .i32⟩) main_call0.v0 id,
    TRef.unary main_call0.v0 main_call0.v1 (broadcastInDim S4096 ![] bcast_S_S4096),
    TRef.binary (TRef.of main_v24 : TRef sig ⟨S4096, .i32⟩) main_call0.v1 main_call0.v2 Host.divsi,
    TRef.unary (TRef.of main_v24 : TRef sig ⟨S4096, .i32⟩) main_call0.v3 signi,
    TRef.unary main_call0.v0 main_call0.v4 signi,
    TRef.unary main_call0.v4 main_call0.v5 (broadcastInDim S4096 ![] bcast_S_S4096),
    TRef.binary main_call0.v3 main_call0.v5 main_call0.v6 (cmpi .ne),
    TRef.unary main_call0.v0 main_call0.v7 (broadcastInDim S4096 ![] bcast_S_S4096),
    TRef.binary (TRef.of main_v24 : TRef sig ⟨S4096, .i32⟩) main_call0.v7 main_call0.v8 Host.remsi,
    TRef.nullary main_call0.c (constantI S_ 32 0#32),
    TRef.unary main_call0.c main_call0.v9 (broadcastInDim S4096 ![] bcast_S_S4096),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S4096 ![] bcast_S_S4096),
    TRef.binary main_call0.v2 main_call0.v12 main_call0.v13 subi,
    TRef.ternary main_call0.v11 main_call0.v13 main_call0.v2 main_call0.call0.v0 select,
    unary main_v10 main_v26 (sitofp .f32 : (⟨S4096x4096, .i32⟩ : BufTy).Contents (Elt F) → (⟨S4096x4096, .f32⟩ : BufTy).Contents (Elt F)),
    nullary main_c_5 (constantI S_ 32 0#32),
    unary main_c_5 main_v27 (broadcastInDim S4096 ![] bcast_S_S4096 : (⟨S_, .i32⟩ : BufTy).Contents (Elt F) → (⟨S4096, .i32⟩ : BufTy).Contents (Elt F)),
    binary main_v25 main_v27 main_v28 (cmpi .slt : (⟨S4096, .i32⟩ : BufTy).Contents (Elt F) → (⟨S4096, .i32⟩ : BufTy).Contents (Elt F) → (⟨S4096, .i1⟩ : BufTy).Contents (Elt F)),
    nullary main_c_6 (constantI S_ 32 32#32),
    unary main_c_6 main_v29 (broadcastInDim S4096 ![] bcast_S_S4096 : (⟨S_, .i32⟩ : BufTy).Contents (Elt F) → (⟨S4096, .i32⟩ : BufTy).Contents (Elt F)),
    binary main_v25 main_v29 main_v30 (addi : (⟨S4096, .i32⟩ : BufTy).Contents (Elt F) → (⟨S4096, .i32⟩ : BufTy).Contents (Elt F) → (⟨S4096, .i32⟩ : BufTy).Contents (Elt F)),
    ternary main_v28 main_v30 main_v25 main_v31 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v31 main_v32 (broadcastInDim S4096x1 ![0] bcast_S4096_S4096x1_0 : (⟨S4096, .i32⟩ : BufTy).Contents (Elt F) → (⟨S4096x1, .i32⟩ : BufTy).Contents (Elt F)),
    binary main_v23 main_v32 main_v33 ((fun x i => Host.gather gather_S32x4096_S4096x1_S4096x4096_1_0_n_n_0_1_14096 x i) : (⟨S32x4096, .i32⟩ : BufTy).Contents (Elt F) → (⟨S4096x1, .i32⟩ : BufTy).Contents (Elt F) → (⟨S4096x4096, .i32⟩ : BufTy).Contents (Elt F)),
    unary main_v33 main_v34 (sitofp .f32 : (⟨S4096x4096, .i32⟩ : BufTy).Contents (Elt F) → (⟨S4096x4096, .f32⟩ : BufTy).Contents (Elt F)),
    binary main_v26 main_v34 main_v35 (subf : (⟨S4096x4096, .f32⟩ : BufTy).Contents (Elt F) → (⟨S4096x4096, .f32⟩ : BufTy).Contents (Elt F) → (⟨S4096x4096, .f32⟩ : BufTy).Contents (Elt F)),
    nullary main_c_7 (constantI S_ 32 0#32),
    unary main_c_7 main_v36 (broadcastInDim S4096 ![] bcast_S_S4096 : (⟨S_, .i32⟩ : BufTy).Contents (Elt F) → (⟨S4096, .i32⟩ : BufTy).Contents (Elt F)),
    binary main_v25 main_v36 main_v37 (cmpi .slt : (⟨S4096, .i32⟩ : BufTy).Contents (Elt F) → (⟨S4096, .i32⟩ : BufTy).Contents (Elt F) → (⟨S4096, .i1⟩ : BufTy).Contents (Elt F)),
    nullary main_c_8 (constantI S_ 32 32#32),
    unary main_c_8 main_v38 (broadcastInDim S4096 ![] bcast_S_S4096 : (⟨S_, .i32⟩ : BufTy).Contents (Elt F) → (⟨S4096, .i32⟩ : BufTy).Contents (Elt F)),
    binary main_v25 main_v38 main_v39 (addi : (⟨S4096, .i32⟩ : BufTy).Contents (Elt F) → (⟨S4096, .i32⟩ : BufTy).Contents (Elt F) → (⟨S4096, .i32⟩ : BufTy).Contents (Elt F)),
    ternary main_v37 main_v39 main_v25 main_v40 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v40 main_v41 (broadcastInDim S4096x1 ![0] bcast_S4096_S4096x1_0 : (⟨S4096, .i32⟩ : BufTy).Contents (Elt F) → (⟨S4096x1, .i32⟩ : BufTy).Contents (Elt F)),
    binary main_arg3 main_v41 main_v42 ((fun x i => Host.gather gather_S32x4096_S4096x1_S4096x4096_1_0_n_n_0_1_14096 x i) : (⟨S32x4096, .f32⟩ : BufTy).Contents (Elt F) → (⟨S4096x1, .i32⟩ : BufTy).Contents (Elt F) → (⟨S4096x4096, .f32⟩ : BufTy).Contents (Elt F)),
    binary main_v35 main_v42 main_v43 (mulf : (⟨S4096x4096, .f32⟩ : BufTy).Contents (Elt F) → (⟨S4096x4096, .f32⟩ : BufTy).Contents (Elt F) → (⟨S4096x4096, .f32⟩ : BufTy).Contents (Elt F)),
    binary main_arg0 main_v43 main_v44 ((fun l r => Host.dotGeneral dot_S8192x4096_S4096x4096_S8192x4096_1_0_0_1_n_n none l r) : (⟨S8192x4096, .f32⟩ : BufTy).Contents (Elt F) → (⟨S4096x4096, .f32⟩ : BufTy).Contents (Elt F) → (⟨S8192x4096, .f32⟩ : BufTy).Contents (Elt F)),
    unary main_arg4 main_v45 (broadcastInDim S1x4096 ![1] bcast_S4096_S1x4096_1 : (⟨S4096, .f32⟩ : BufTy).Contents (Elt F) → (⟨S1x4096, .f32⟩ : BufTy).Contents (Elt F)),
    unary main_v45 main_v46 (broadcastInDim S8192x4096 ![0, 1] bcast_S1x4096_S8192x4096_0_1 : (⟨S1x4096, .f32⟩ : BufTy).Contents (Elt F) → (⟨S8192x4096, .f32⟩ : BufTy).Contents (Elt F)),
    binary main_v44 main_v46 main_v47 (addf : (⟨S8192x4096, .f32⟩ : BufTy).Contents (Elt F) → (⟨S8192x4096, .f32⟩ : BufTy).Contents (Elt F) → (⟨S8192x4096, .f32⟩ : BufTy).Contents (Elt F)) ]

/-- The printed entry function is that line: unfolding the two functions' bodies at their calls and sequencing
    them into the rest is computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., unary_bufs_sub .., unary_bufs_sub ..,
    unary_bufs_sub .., unary_bufs_sub .., binary_bufs_sub .., nullary_bufs_sub .., unary_bufs_sub .., binary_bufs_sub ..,
    reshape_bufs_sub .., nullary_bufs_sub .., nullary_bufs_sub .., unary_bufs_sub .., binary_bufs_sub .., unary_bufs_sub ..,
    unary_bufs_sub .., unary_bufs_sub .., unary_bufs_sub .., binary_bufs_sub .., nullary_bufs_sub .., unary_bufs_sub ..,
    binary_bufs_sub .., reshape_bufs_sub .., nullary_bufs_sub .., unary_bufs_sub .., binary_bufs_sub .., nullary_bufs_sub ..,
    nullary_bufs_sub .., unary_bufs_sub .., unary_bufs_sub .., binary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., unary_bufs_sub .., binary_bufs_sub .., ternary_bufs_sub ..,
    unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., binary_bufs_sub .., unary_bufs_sub ..,
    unary_bufs_sub .., binary_bufs_sub ..⟩

/-! ## What the line computes -/

/-- The shift amounts 0, 4, …, 28: the iota over eight positions times the constant four. -/
def shifts : IVec S8 32 :=
  muli (iotaInDim S8 32 0) (broadcastInDim S8 ![] bcast_S_S8 (constantI S_ 32 4#32))

/-- The weight words' fields: each packed row repeated over eight positions, shifted right by that position's
    amount, the low four bits kept, and the `512 × 8 × 4096` array read as `4096 × 4096`. -/
def fieldsW (qw : IVec S512x4096 32) : IVec S4096x4096 32 :=
  shapeCast S4096x4096
    (andi
      (Host.shrsi
        (broadcastInDim S512x8x4096 ![0, 1, 2] bcast_S512x1x4096_S512x8x4096_0_1_2
          (broadcastInDim S512x1x4096 ![0, 2] bcast_S512x4096_S512x1x4096_0_2 qw))
        (broadcastInDim S512x8x4096 ![0, 1, 2] bcast_S1x8x1_S512x8x4096_0_1_2
          (broadcastInDim S1x8x1 ![1] bcast_S8_S1x8x1_1 shifts)))
      (broadcastInDim S512x8x4096 ![] bcast_S_S512x8x4096 (constantI S_ 32 15#32)))
    shapeCasts_S512x8x4096_S4096x4096

/-- The zero-point words' fields: each packed column repeated over eight positions, shifted and masked the same
    way, and the `32 × 512 × 8` array read as `32 × 4096`. -/
def fieldsZ (qz : IVec S32x512 32) : IVec S32x4096 32 :=
  shapeCast S32x4096
    (andi
      (Host.shrsi
        (broadcastInDim S32x512x8 ![0, 1, 2] bcast_S32x512x1_S32x512x8_0_1_2
          (broadcastInDim S32x512x1 ![0, 1] bcast_S32x512_S32x512x1_0_1 qz))
        (broadcastInDim S32x512x8 ![0, 1, 2] bcast_S1x1x8_S32x512x8_0_1_2
          (broadcastInDim S1x1x8 ![2] bcast_S8_S1x1x8_2 shifts)))
      (broadcastInDim S32x512x8 ![] bcast_S_S32x512x8 (constantI S_ 32 15#32)))
    shapeCasts_S32x512x8_S32x4096

/-- The zero points: the fields plus one. -/
def zeroPts (qz : IVec S32x512 32) : IVec S32x4096 32 :=
  addi (fieldsZ qz) (broadcastInDim S32x4096 ![] bcast_S_S32x4096 (constantI S_ 32 1#32))

/-- The channel numbers 0 … 4095 as words. -/
def chan : IVec S4096 32 := iotaInDim S4096 32 0

/-- The divisor 128 (the scalar constant, converted to its own type, which changes nothing). -/
def divisor : IVec S_ 32 := id (constantI S_ 32 128#32)

/-- The quotient rounded toward zero. -/
def quot : IVec S4096 32 := Host.divsi chan (broadcastInDim S4096 ![] bcast_S_S4096 divisor)

/-- The floor division of the channel numbers by 128: the truncated quotient, less one where the operands' signs
    differ and the remainder is not zero. -/
def floorDiv : IVec S4096 32 :=
  select
    (andi
      (cmpi .ne (signi chan) (broadcastInDim S4096 ![] bcast_S_S4096 (signi divisor)))
      (cmpi .ne (Host.remsi chan (broadcastInDim S4096 ![] bcast_S_S4096 divisor))
        (broadcastInDim S4096 ![] bcast_S_S4096 (constantI S_ 32 0#32))))
    (subi quot (broadcastInDim S4096 ![] bcast_S_S4096 (constantI S_ 32 1#32)))
    quot

/-- The row to gather for each channel, as a column of words: the floor quotient, plus 32 where it is negative. -/
def rowIdx : IVec S4096x1 32 :=
  broadcastInDim S4096x1 ![0] bcast_S4096_S4096x1_0
    (select (cmpi .slt floorDiv (broadcastInDim S4096 ![] bcast_S_S4096 (constantI S_ 32 0#32)))
      (addi floorDiv (broadcastInDim S4096 ![] bcast_S_S4096 (constantI S_ 32 32#32)))
      floorDiv)

/-- The dequantized weight: (fields − gathered zero points) · gathered scales, in floats. -/
def weight (qw : IVec S512x4096 32) (qz : IVec S32x512 32) (sc : FVec F S32x4096 .f32) : FVec F S4096x4096 .f32 :=
  mulf
    (subf (sitofp .f32 (fieldsW qw))
      (sitofp .f32 (Host.gather gather_S32x4096_S4096x1_S4096x4096_1_0_n_n_0_1_14096 (zeroPts qz) rowIdx)))
    (Host.gather gather_S32x4096_S4096x1_S4096x4096_1_0_n_n_0_1_14096 sc rowIdx)

/-- The result as a function of the five argument arrays: x times the dequantized weight, plus the bias along the rows. -/
def refTerm (x : FVec F S8192x4096 .f32) (qw : IVec S512x4096 32) (qz : IVec S32x512 32) (sc : FVec F S32x4096 .f32)
    (b : FVec F S4096 .f32) : FVec F S8192x4096 .f32 :=
  addf
    (Host.dotGeneral dot_S8192x4096_S4096x4096_S8192x4096_1_0_0_1_n_n none x (weight qw qz sc))
    (broadcastInDim S8192x4096 ![0, 1] bcast_S1x4096_S8192x4096_0_1
      (broadcastInDim S1x4096 ![1] bcast_S4096_S1x4096_1 b))

/-! ## The line's fold at the result and at the arguments -/

set_option maxRecDepth 8192 in
set_option maxHeartbeats 1600000 in
/-- The fold at the result buffer: each operation's result read at its own buffer is its function of its operands'
    contents, at any other buffer what was there; what is left is `refTerm` unfolded. -/
theorem out_eq (V : Valuation τ sig (Elt F)) :
    after ops V (main_v47 : DevRef τ sig)
      = refTerm (V (main_arg0 : DevRef τ sig)) (V (main_arg1 : DevRef τ sig)) (V (main_arg2 : DevRef τ sig))
          (V (main_arg3 : DevRef τ sig)) (V (main_arg4 : DevRef τ sig)) := by
  after_results_simp
  rfl

/-- The line writes none of the five arguments. -/
theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp

/-! ## The run -/

/-- On every device, for any float values, from any memory with zero counters: every weakly fair execution of the
    entry function terminates with the result buffer at `refTerm` of the arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v47)
        = refTerm (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v47).trans (out_eq _), (h c main_arg0).trans (arg0_eq _),
      (h c main_arg1).trans (arg1_eq _), (h c main_arg2).trans (arg2_eq _), (h c main_arg3).trans (arg3_eq _),
      (h c main_arg4).trans (arg4_eq _)⟩)
    (run_seq scopedRefs_eq scopedSems_eq defs main (fun _ => ops) main_eq (fun _ => ops_sub) m ρ)

end Cert.ReferenceIdeal.RefRun

end
-- ==== Proof.LibScatterGather.lean ====
/-
  Reading an accumulating scatter and a row gather at one element, at the ideal instance.

  `scatterAdd_vec_apply`: a vector of `M` updates added into a vector of length `N` at the positions a column of `M` words
  names: element `i` of the result is the operand's element plus the sum of the updates whose word, read as a signed
  integer, is `i` (a word outside `[0, N)` contributes nowhere).
  `scatterAdd_rows_apply`: the same for `M` rows of width `C` added into an `N × C` array: row `i`, column `j` collects
  column `j` of the update rows whose word is `i`.
  `gather_rows_apply`: row `e` of a gather of `M` rows out of an `N × C` array is the array's row at word `e`, read signed
  and clamped into `[0, N - 1]`.
-/
import Idealize.ShloMosaic.PureOps.Ideal
import Idealize.ShloMosaic.PureOps.Ideal.Laws
import Idealize.ShloMosaic.Lib.ValueIdx
import Idealize.ShloMosaic.Lib.StableHlo.Predicate

noncomputable section

namespace Cert.LibScatterGather

open Idealize.ShloMosaic Idealize.ShloMosaic.ValueIdx

/-! ## A vector of updates added into a vector -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- The vector scatter's dimension numbers: no window axes, the operand's one axis inserted and scatter-indexed, the
    index vector on axis 1 of the column of words. -/
abbrev vecDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update `j` lands on the operand's axis at its word read signed: the start is the word at row `j` of the column, the
    window coordinate is zero (the axis is inserted). -/
theorem vec_landing {N M w : Nat} (wf : ScatterDims.WF ⟨1, ![N]⟩ ⟨2, ![M, 1]⟩ ⟨1, ![M]⟩ [] [0] [0] 1)
    (idx : IVec ⟨2, ![M, 1]⟩ w) (j : (⟨1, ![M]⟩ : Shape).Idx) (a : Fin 1) :
    (vecDims N M wf).start j idx a + ((vecDims N M wf).window j a : ℤ) = (idx (ix2 (j 0) (0 : Fin 1))).toInt := by
  obtain rfl : a = 0 := Subsingleton.elim _ _
  unfold ScatterDims.start ScatterDims.window
  rw [dif_pos (show (0 : Fin 1) ∈ (vecDims N M wf).scatterDimsToOperandDims from List.mem_singleton.mpr rfl),
    dif_neg (show (0 : Fin 1) ∉ (vecDims N M wf).sKept by
      show (0 : Fin 1) ∉ (List.finRange 1).filter (· ∉ [0]); decide)]
  have hsi : (vecDims N M wf).siIdx j ⟨List.idxOf (0 : Fin 1) (vecDims N M wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  simp

/-- The update at `j` lands on element `i` exactly when its word, read signed, is `i`. -/
theorem vec_resultIdx {N M w : Nat} (wf : ScatterDims.WF ⟨1, ![N]⟩ ⟨2, ![M, 1]⟩ ⟨1, ![M]⟩ [] [0] [0] 1)
    (idx : IVec ⟨2, ![M, 1]⟩ w) (j : (⟨1, ![M]⟩ : Shape).Idx) (i : Fin N) :
    (vecDims N M wf).resultIdx? j idx = some (ix1 i) ↔ (idx (ix2 (j 0) (0 : Fin 1))).toInt = (i.val : ℤ) := by
  have hl := vec_landing wf idx j
  unfold ScatterDims.resultIdx?
  constructor
  · intro h
    split at h
    · next hc =>
      have h0 := congrFun (Option.some.inj h) 0
      have h1 := congrArg Fin.val h0
      simp only at h1
      have := hc 0
      rw [← hl 0]
      change ((vecDims N M wf).start j idx 0 + ((vecDims N M wf).window j 0 : ℤ)).toNat = i.val at h1
      omega
    · exact absurd h (by simp)
  · intro h
    have hc : ∀ a, 0 ≤ (vecDims N M wf).start j idx a + ((vecDims N M wf).window j a : ℤ) ∧
        (vecDims N M wf).start j idx a + ((vecDims N M wf).window j a : ℤ) < ((⟨1, ![N]⟩ : Shape).size a : ℤ) := by
      intro a
      obtain rfl : a = 0 := Subsingleton.elim _ _
      rw [hl 0, h]
      have := i.isLt
      constructor
      · omega
      · show (i.val : ℤ) < (N : ℤ); omega
    rw [dif_pos hc]
    congr 1
    funext a
    obtain rfl : a = 0 := Subsingleton.elim _ _
    refine Fin.ext ?_
    show ((vecDims N M wf).start j idx 0 + ((vecDims N M wf).window j 0 : ℤ)).toNat = i.val
    rw [hl 0, h]; simp

/-- THE VECTOR SCATTER READ AT `i`: the operand's element plus the sum, over the `M` updates, of those whose word read
    signed is `i`. The filtered sum over update indices becomes the sum over `Fin M` with an `if` (`Finset.sum_filter`,
    then the update index set re-indexed by its one coordinate). -/
theorem scatterAdd_vec_apply {N M w : Nat} {φ : FTy} (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1)
    (x : FVec Ideal ⟨1, ![N]⟩ φ) (idx : IVec ⟨2, ![M, 1]⟩ w) (upd : FVec Ideal ⟨1, ![M]⟩ φ) (i : Fin N) :
    Host.scatterAdd d x idx upd (ix1 i)
      = x (ix1 i) + ∑ e : Fin M, if (idx (ix2 e (0 : Fin 1))).toInt = (i.val : ℤ) then upd (ix1 e) else 0 := by
  obtain ⟨uw, iw, sd, ivd, wf⟩ := d
  simp only at huw hiw hsd hivd
  subst huw hiw hsd hivd
  show Ideal.hostScatterAdd (vecDims N M wf) x idx upd (ix1 i) = _
  unfold Ideal.hostScatterAdd
  congr 1
  rw [Finset.sum_filter, sum_idx1]
  refine Finset.sum_congr rfl fun e _ => ?_
  exact if_congr (vec_resultIdx wf idx (ix1 e) i) rfl rfl

/-! ## Rows of updates added into an array -/

/-- The row scatter's dimension numbers: the updates' axis 1 the window axis, the operand's axis 0 inserted and
    scatter-indexed, the index vector on axis 1 of the column of words. -/
abbrev rowDims (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- On the operand's axis 0 update `q` lands at its word read signed: the start is the word at row `q 0` of the column,
    the window coordinate zero (the axis is inserted). -/
theorem row_landing0 {N M C w : Nat} (wf : ScatterDims.WF ⟨2, ![N, C]⟩ ⟨2, ![M, 1]⟩ ⟨2, ![M, C]⟩ [1] [0] [0] 1)
    (idx : IVec ⟨2, ![M, 1]⟩ w) (q : (⟨2, ![M, C]⟩ : Shape).Idx) :
    (rowDims N M C wf).start q idx 0 + ((rowDims N M C wf).window q 0 : ℤ) = (idx (ix2 (q 0) (0 : Fin 1))).toInt := by
  unfold ScatterDims.start ScatterDims.window
  rw [dif_pos (show (0 : Fin 2) ∈ (rowDims N M C wf).scatterDimsToOperandDims from List.mem_singleton.mpr rfl),
    dif_neg (show (0 : Fin 2) ∉ (rowDims N M C wf).sKept by
      show (0 : Fin 2) ∉ (List.finRange 2).filter (· ∉ [(0 : Fin 2)]); decide)]
  have hsi : (rowDims N M C wf).siIdx q ⟨List.idxOf (0 : Fin 2) (rowDims N M C wf).scatterDimsToOperandDims,
      List.idxOf_lt_length_iff.2 (List.mem_singleton.mpr rfl)⟩ = ix2 (q 0) (0 : Fin 1) := by
    funext b; refine Fin.ext ?_
    match b with
    | ⟨0, _⟩ => rfl
    | ⟨1, _⟩ => rfl
  rw [hsi]
  simp

/-- On the operand's axis 1 update `q` lands at its own column: the start is 0 (the axis is not scatter-indexed), the
    window coordinate the update's coordinate on its one window axis. -/
theorem row_landing1 {N M C w : Nat} (wf : ScatterDims.WF ⟨2, ![N, C]⟩ ⟨2, ![M, 1]⟩ ⟨2, ![M, C]⟩ [1] [0] [0] 1)
    (idx : IVec ⟨2, ![M, 1]⟩ w) (q : (⟨2, ![M, C]⟩ : Shape).Idx) :
    (rowDims N M C wf).start q idx 1 + ((rowDims N M C wf).window q 1 : ℤ) = ((q 1).val : ℤ) := by
  unfold ScatterDims.start ScatterDims.window
  rw [dif_neg (show (1 : Fin 2) ∉ (rowDims N M C wf).scatterDimsToOperandDims by
      show (1 : Fin 2) ∉ [(0 : Fin 2)]; decide),
    dif_pos (show (1 : Fin 2) ∈ (rowDims N M C wf).sKept by
      show (1 : Fin 2) ∈ (List.finRange 2).filter (· ∉ [(0 : Fin 2)]); decide), Int.zero_add]
  rfl

/-- The update at `q` lands on element `(i, k)` exactly when its word, read signed, is `i` and its column is `k`. -/
theorem row_resultIdx {N M C w : Nat} (wf : ScatterDims.WF ⟨2, ![N, C]⟩ ⟨2, ![M, 1]⟩ ⟨2, ![M, C]⟩ [1] [0] [0] 1)
    (idx : IVec ⟨2, ![M, 1]⟩ w) (q : (⟨2, ![M, C]⟩ : Shape).Idx) (i : Fin N) (k : Fin C) :
    (rowDims N M C wf).resultIdx? q idx = some (ix2 i k)
      ↔ (idx (ix2 (q 0) (0 : Fin 1))).toInt = (i.val : ℤ) ∧ q 1 = k := by
  have hl0 := row_landing0 wf idx q
  have hl1 := row_landing1 wf idx q
  unfold ScatterDims.resultIdx?
  constructor
  · intro h
    split at h
    · next hc =>
      have hf := Option.some.inj h
      have h0 := congrArg Fin.val (congrFun hf 0)
      have h1 := congrArg Fin.val (congrFun hf 1)
      change ((rowDims N M C wf).start q idx 0 + ((rowDims N M C wf).window q 0 : ℤ)).toNat = i.val at h0
      change ((rowDims N M C wf).start q idx 1 + ((rowDims N M C wf).window q 1 : ℤ)).toNat = k.val at h1
      have hc0 := (hc 0).1
      rw [hl0] at h0 hc0
      rw [hl1] at h1
      refine ⟨by omega, Fin.ext ?_⟩
      simpa using h1
    · exact absurd h (by simp)
  · rintro ⟨h, hk⟩
    have hc : ∀ a, 0 ≤ (rowDims N M C wf).start q idx a + ((rowDims N M C wf).window q a : ℤ) ∧
        (rowDims N M C wf).start q idx a + ((rowDims N M C wf).window q a : ℤ) < ((⟨2, ![N, C]⟩ : Shape).size a : ℤ) := by
      intro a
      match a with
      | ⟨0, _⟩ =>
        have := i.isLt
        refine ⟨?_, ?_⟩
        · show 0 ≤ (rowDims N M C wf).start q idx 0 + ((rowDims N M C wf).window q 0 : ℤ)
          rw [hl0, h]; omega
        · show (rowDims N M C wf).start q idx 0 + ((rowDims N M C wf).window q 0 : ℤ) < (N : ℤ)
          rw [hl0, h]; omega
      | ⟨1, _⟩ =>
        have := idx2_lt1 q
        refine ⟨?_, ?_⟩
        · show 0 ≤ (rowDims N M C wf).start q idx 1 + ((rowDims N M C wf).window q 1 : ℤ)
          rw [hl1]; omega
        · show (rowDims N M C wf).start q idx 1 + ((rowDims N M C wf).window q 1 : ℤ) < (C : ℤ)
          rw [hl1]; omega
    rw [dif_pos hc]
    congr 1
    funext a
    refine Fin.ext ?_
    match a with
    | ⟨0, _⟩ =>
      show ((rowDims N M C wf).start q idx 0 + ((rowDims N M C wf).window q 0 : ℤ)).toNat = i.val
      rw [hl0, h]; simp
    | ⟨1, _⟩ =>
      show ((rowDims N M C wf).start q idx 1 + ((rowDims N M C wf).window q 1 : ℤ)).toNat = k.val
      rw [hl1, hk]; simp

/-- THE ROW SCATTER READ AT `(i, j)`: the operand's element plus the sum, over the `M` update rows, of column `j` of those
    whose word read signed is `i`. The filtered sum over update indices becomes the double sum over (row, column) with an
    `if` (`Finset.sum_filter`, `sum_idx2`); the column sum keeps the one term at `j` (`Finset.sum_ite_eq'`). -/
theorem scatterAdd_rows_apply {N M C w : Nat} {φ : FTy} (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (x : FVec Ideal ⟨2, ![N, C]⟩ φ) (idx : IVec ⟨2, ![M, 1]⟩ w) (upd : FVec Ideal ⟨2, ![M, C]⟩ φ) (i : Fin N) (j : Fin C) :
    Host.scatterAdd d x idx upd (ix2 i j)
      = x (ix2 i j) + ∑ e : Fin M, if (idx (ix2 e (0 : Fin 1))).toInt = (i.val : ℤ) then upd (ix2 e j) else 0 := by
  obtain ⟨uw, iw, sd, ivd, wf⟩ := d
  simp only at huw hiw hsd hivd
  subst huw hiw hsd hivd
  show Ideal.hostScatterAdd (rowDims N M C wf) x idx upd (ix2 i j) = _
  unfold Ideal.hostScatterAdd
  congr 1
  rw [Finset.sum_filter, sum_idx2]
  refine Finset.sum_congr rfl fun e _ => ?_
  have hstep : ∀ b : Fin C,
      (if (rowDims N M C wf).resultIdx? (ix2 e b) idx = some (ix2 i j) then upd (ix2 e b) else 0)
        = if b = j then (if (idx (ix2 e (0 : Fin 1))).toInt = (i.val : ℤ) then upd (ix2 e b) else 0) else 0 := by
    intro b
    have hiff := row_resultIdx wf idx (ix2 e b) i j
    by_cases hb : b = j
    · rw [if_pos hb]
      exact if_congr (hiff.trans ⟨fun h => h.1, fun h => ⟨h, hb⟩⟩) rfl rfl
    · rw [if_neg hb, if_neg]
      exact fun h => hb (hiff.mp h).2
  rw [Finset.sum_congr rfl fun b _ => hstep b, Finset.sum_ite_eq' Finset.univ j, if_pos (Finset.mem_univ j)]

/-! ## Rows gathered out of an array -/

/-- The row gather's dimension numbers: the result's axis 1 the offset axis, the operand's axis 0 collapsed and
    start-indexed, no batching axes, the index vector on axis 1 of the column of words, slices one row wide. -/
abbrev rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- On the collapsed axis the operand index is the clamped start: the word at row `e` of the column read signed, cut
    into `[0, N - 1]`; no batching or offset coordinate. -/
theorem rowGather_axis0 {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (j : Fin C) :
    ((rowGatherDims N M C wf).operandIdx (ix2 e j) idx 0).val = min (idx (ix2 e (0 : Fin 1))).toInt.toNat (N - 1) := by
  show (rowGatherDims N M C wf).start (ix2 e j) idx 0 + (rowGatherDims N M C wf).batchCoord (ix2 e j) 0
    + (rowGatherDims N M C wf).offCoord (ix2 e j) 0 = _
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos (show (0 : Fin 2) ∈ (rowGatherDims N M C wf).startIndexMap from List.mem_singleton.mpr rfl)]
  have hsi : (rowGatherDims N M C wf).siIdx (ix2 e j) ⟨List.idxOf (0 : Fin 2) (rowGatherDims N M C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the offset axis the operand index is the result's column: the start is 0 (the axis is not start-indexed), the
    offset coordinate the result's coordinate on its one offset axis. -/
theorem rowGather_axis1 {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (j : Fin C) :
    ((rowGatherDims N M C wf).operandIdx (ix2 e j) idx 1).val = j.val := by
  show (rowGatherDims N M C wf).start (ix2 e j) idx 1 + (rowGatherDims N M C wf).batchCoord (ix2 e j) 1
    + (rowGatherDims N M C wf).offCoord (ix2 e j) 1 = _
  rw [GatherDims.batchCoord_eq_zero _ _ _ List.not_mem_nil, Nat.add_zero]
  unfold GatherDims.start
  rw [dif_neg (show (1 : Fin 2) ∉ (rowGatherDims N M C wf).startIndexMap by
    show (1 : Fin 2) ∉ [(0 : Fin 2)]; decide), Nat.zero_add]
  unfold GatherDims.offCoord
  rw [dif_pos (show (1 : Fin 2) ∈ (rowGatherDims N M C wf).sKept by
    show (1 : Fin 2) ∈ (List.finRange 2).filter (· ∉ [(0 : Fin 2)] ++ []); decide)]
  rfl

/-- THE ROW GATHER READ AT `(e, j)`: the array at row "word `e`, read signed and clamped into `[0, N - 1]`", column `j`. -/
theorem gather_rows_apply {α : Type} {N M C w : Nat} (d : GatherDims ⟨2, ![N, C]⟩ ⟨2, ![M, 1]⟩ ⟨2, ![M, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, C])
    (x : (⟨2, ![N, C]⟩ : Shape).Idx → α) (idx : IVec ⟨2, ![M, 1]⟩ w) (e : Fin M) (j : Fin C) (hN : 0 < N) :
    Host.gather d x idx (ix2 e j)
      = x (ix2 (⟨min (idx (ix2 e (0 : Fin 1))).toInt.toNat (N - 1), by omega⟩ : Fin N) j) := by
  obtain ⟨od, cd, ob, sb, sm, ivd, ss, wf⟩ := d
  simp only at hoff hcoll hob hsb hsim hivd hss
  subst hoff hcoll hob hsb hsim hivd hss
  show x ((rowGatherDims N M C wf).operandIdx (ix2 e j) idx) = _
  congr 1
  funext a
  refine Fin.ext ?_
  match a with
  | ⟨0, _⟩ => exact rowGather_axis0 wf idx e j
  | ⟨1, _⟩ => exact rowGather_axis1 wf idx e j

end Cert.LibScatterGather

end
-- ==== Proof.RefValue.lean ====
/-
  The reference's result is the specified array. `RefRun.refTerm`, the composition of the reference's host
  operations, is read at one result index (p, q) at the ideal values and shown equal to `Cert.Dequant.out` there:
  the host dot is the sum over input channels of x[p, a] times the dequantized weight at (a, q), and the bias is
  read through its two broadcasts. The dequantized weight at (a, q) is read piece by piece: the weight word's field
  through the reshape of the 512 × 8 × 4096 array (row a is packed row a / 8, position a % 8); the zero point's field
  through the reshape of the 32 × 512 × 8 array (column q is packed column q / 8, position q % 8), plus one; both row
  gathers at the row index of channel a, which is the word of a / 128 (checked for every channel by computation), so
  the clamped row is the channel's group. Both sides then form the same products in the same order.
-/
import proofs.«417043_j86071144611916_3_alg».proof.Proof.RefRun
import proofs.«417043_j86071144611916_3_alg».proof.Proof.Spec
import proofs.«417043_j86071144611916_3_alg».proof.Proof.LibPlainDot
import proofs.«417043_j86071144611916_3_alg».proof.Proof.LibScatterGather
import Idealize.ShloMosaic.Lib.Pipeline.Value
import Idealize.ShloMosaic.Lib.IdealHost

noncomputable section

open scoped BigOperators

namespace Cert.ReferenceIdeal.RefValue

open Cert.ReferenceIdeal Cert.ReferenceIdeal.Gen Cert.ReferenceIdeal.RefRun Idealize.ShloMosaic Idealize.ShloMosaic.TcCoe
  Idealize.SL.Sem Idealize.ShloMosaic.ValueIdx Cert.Dequant

/-! ## The bias through its two broadcasts -/

/-- The bias broadcast to one row and then to every row reads the bias at the column. -/
theorem bias_apply {α : Type} (b : S4096.Idx → α) (p : Fin 8192) (q : Fin 4096) :
    broadcastInDim S8192x4096 ![0, 1] bcast_S1x4096_S8192x4096_0_1
        (broadcastInDim S1x4096 ![1] bcast_S4096_S1x4096_1 b) (ix2 p q) = b (ix1 q) := by
  rw [broadcastInDim_apply _ _ _ (ix2 p q) (ix2 (0 : Fin 1) q) (fun a => by
        match a with
        | ⟨0, _⟩ => rfl
        | ⟨1, _⟩ => rfl),
    broadcastInDim_apply _ _ _ (ix2 (0 : Fin 1) q) (ix1 q) (fun a => by
        match a with
        | ⟨0, _⟩ => rfl)]

/-! ## The shift amounts and the fields -/

/-- Shift amount p is the word p times the word 4. -/
theorem shifts_apply (p : Fin 8) : shifts (ix1 p) = IntOp.muli (BitVec.ofNat 32 p.val) 4#32 := by
  unfold shifts
  show IntOp.muli (iotaInDim S8 32 0 (ix1 p)) (broadcastInDim S8 ![] bcast_S_S8 (constantI S_ 32 4#32) (ix1 p)) = _
  rw [broadcastInDim_scalar_apply]
  rfl

/-- Row a, column j of the unpacked weight is field a % 8 of packed row a / 8. -/
theorem fieldsW_apply (qw : IVec S512x4096 32) (a j : Fin 4096) : fieldsW qw (ix2 a j) = wField qw a j := by
  have ha := a.isLt
  unfold fieldsW
  rw [shapeCast_apply _ _ (ix2 a j)
    (ix3 (⟨a.val / 8, by omega⟩ : Fin 512) (⟨a.val % 8, Nat.mod_lt _ (by decide)⟩ : Fin 8) j) (by
      rw [Shape.rowMajor_val_three, Shape.rowMajor_val_two]
      show (a.val / 8 * 8 + a.val % 8) * 4096 + j.val = a.val * 4096 + j.val
      rw [Nat.div_add_mod' a.val 8])]
  show IntOp.andi (IntOp.shrsi .host _ _) _ = _
  rw [broadcastInDim_apply _ _ _ _ (ix3 (⟨a.val / 8, by omega⟩ : Fin 512) (0 : Fin 1) j) (fun b => by
        match b with
        | ⟨0, _⟩ => rfl
        | ⟨1, _⟩ => rfl
        | ⟨2, _⟩ => rfl),
    broadcastInDim_apply _ _ _ _ (ix2 (⟨a.val / 8, by omega⟩ : Fin 512) j) (fun b => by
        match b with
        | ⟨0, _⟩ => rfl
        | ⟨1, _⟩ => rfl),
    broadcastInDim_apply _ _ _ _ (ix3 (0 : Fin 1) (⟨a.val % 8, Nat.mod_lt _ (by decide)⟩ : Fin 8) (0 : Fin 1)) (fun b => by
        match b with
        | ⟨0, _⟩ => rfl
        | ⟨1, _⟩ => rfl
        | ⟨2, _⟩ => rfl),
    broadcastInDim_apply _ _ _ _ (ix1 (⟨a.val % 8, Nat.mod_lt _ (by decide)⟩ : Fin 8)) (fun b => by
        match b with
        | ⟨0, _⟩ => rfl),
    broadcastInDim_scalar_apply, shifts_apply]
  exact andi_shrsi_field .host _ _

/-- Group g, column j of the unpacked zero points is field j % 8 of packed column j / 8. -/
theorem fieldsZ_apply (qz : IVec S32x512 32) (g : Fin 32) (j : Fin 4096) : fieldsZ qz (ix2 g j) = zField qz g j := by
  have hj := j.isLt
  unfold fieldsZ
  rw [shapeCast_apply _ _ (ix2 g j)
    (ix3 g (⟨j.val / 8, by omega⟩ : Fin 512) (⟨j.val % 8, Nat.mod_lt _ (by decide)⟩ : Fin 8)) (by
      rw [Shape.rowMajor_val_three, Shape.rowMajor_val_two]
      show (g.val * 512 + j.val / 8) * 8 + j.val % 8 = g.val * 4096 + j.val
      omega)]
  show IntOp.andi (IntOp.shrsi .host _ _) _ = _
  rw [broadcastInDim_apply _ _ _ _ (ix3 g (⟨j.val / 8, by omega⟩ : Fin 512) (0 : Fin 1)) (fun b => by
        match b with
        | ⟨0, _⟩ => rfl
        | ⟨1, _⟩ => rfl
        | ⟨2, _⟩ => rfl),
    broadcastInDim_apply _ _ _ _ (ix2 g (⟨j.val / 8, by omega⟩ : Fin 512)) (fun b => by
        match b with
        | ⟨0, _⟩ => rfl
        | ⟨1, _⟩ => rfl),
    broadcastInDim_apply _ _ _ _ (ix3 (0 : Fin 1) (0 : Fin 1) (⟨j.val % 8, Nat.mod_lt _ (by decide)⟩ : Fin 8)) (fun b => by
        match b with
        | ⟨0, _⟩ => rfl
        | ⟨1, _⟩ => rfl
        | ⟨2, _⟩ => rfl),
    broadcastInDim_apply _ _ _ _ (ix1 (⟨j.val % 8, Nat.mod_lt _ (by decide)⟩ : Fin 8)) (fun b => by
        match b with
        | ⟨0, _⟩ => rfl),
    broadcastInDim_scalar_apply, shifts_apply]
  exact andi_shrsi_field .host _ _

/-- The zero point at group g, column j is the field plus the word one. -/
theorem zeroPts_apply (qz : IVec S32x512 32) (g : Fin 32) (j : Fin 4096) :
    zeroPts qz (ix2 g j) = IntOp.addi (zField qz g j) 1#32 := by
  unfold zeroPts
  show IntOp.addi (fieldsZ qz (ix2 g j)) (broadcastInDim S32x4096 ![] bcast_S_S32x4096 (constantI S_ 32 1#32) (ix2 g j)) = _
  rw [fieldsZ_apply, broadcastInDim_scalar_apply]
  rfl

/-! ## The row index -/

/-- The sign of a word as a word: 0, -1 or 1. -/
def sgn (x : BitVec 32) : BitVec 32 := if x = 0 then 0 else if x.msb then -1 else 1

/-- The floor division by 128 on one word, as the program computes it. -/
def fdWord (e : BitVec 32) : BitVec 32 :=
  Scalar.select
    (IntOp.andi (IntOp.cmpi .ne (sgn e) (sgn 128#32)) (IntOp.cmpi .ne (IntOp.remsi .host e 128#32) 0#32))
    (IntOp.subi (IntOp.divsi .host e 128#32) 1#32)
    (IntOp.divsi .host e 128#32)

/-- The row word on one channel word: the floor quotient, plus 32 if negative. -/
def rowWord (e : BitVec 32) : BitVec 32 :=
  Scalar.select (IntOp.cmpi .slt (fdWord e) 0#32) (IntOp.addi (fdWord e) 32#32) (fdWord e)

/-- For every channel below 4096 the row word is the word of the channel's group: the division is by 128, never the
    signed division's corner, and every case is computed. -/
theorem rowWord_eq : ∀ e : Fin 4096, rowWord (BitVec.ofNat 32 e.val) = BitVec.ofNat 32 (e.val / 128) := by
  decide +kernel

/-- The floor division read at channel e. -/
theorem floorDiv_apply (e : Fin 4096) : floorDiv (ix1 e) = fdWord (BitVec.ofNat 32 e.val) := by
  unfold floorDiv quot
  show Scalar.select
      (IntOp.andi
        (IntOp.cmpi .ne (signi chan (ix1 e)) (broadcastInDim S4096 ![] bcast_S_S4096 (signi divisor) (ix1 e)))
        (IntOp.cmpi .ne (IntOp.remsi .host (chan (ix1 e)) (broadcastInDim S4096 ![] bcast_S_S4096 divisor (ix1 e)))
          (broadcastInDim S4096 ![] bcast_S_S4096 (constantI S_ 32 0#32) (ix1 e))))
      (IntOp.subi (IntOp.divsi .host (chan (ix1 e)) (broadcastInDim S4096 ![] bcast_S_S4096 divisor (ix1 e)))
        (broadcastInDim S4096 ![] bcast_S_S4096 (constantI S_ 32 1#32) (ix1 e)))
      (IntOp.divsi .host (chan (ix1 e)) (broadcastInDim S4096 ![] bcast_S_S4096 divisor (ix1 e))) = _
  simp only [broadcastInDim_scalar_apply]
  rfl

/-- The row index column read at channel e is the word of e / 128. -/
theorem rowIdx_apply (e : Fin 4096) : rowIdx (ix2 e (0 : Fin 1)) = BitVec.ofNat 32 (e.val / 128) := by
  unfold rowIdx
  rw [broadcastInDim_apply _ _ _ _ (ix1 e) (fun b => by
        match b with
        | ⟨0, _⟩ => rfl)]
  show Scalar.select (IntOp.cmpi .slt (floorDiv (ix1 e)) (broadcastInDim S4096 ![] bcast_S_S4096 (constantI S_ 32 0#32) (ix1 e)))
      (IntOp.addi (floorDiv (ix1 e)) (broadcastInDim S4096 ![] bcast_S_S4096 (constantI S_ 32 32#32) (ix1 e)))
      (floorDiv (ix1 e)) = _
  simp only [broadcastInDim_scalar_apply, floorDiv_apply]
  exact rowWord_eq e

/-- The clamped row of channel e is its group. -/
theorem clampRow (e : Fin 4096) (h : min (rowIdx (ix2 e (0 : Fin 1))).toInt.toNat (32 - 1) < 32) :
    (⟨min (rowIdx (ix2 e (0 : Fin 1))).toInt.toNat (32 - 1), h⟩ : Fin 32) = grp e := by
  have he := e.isLt
  apply Fin.ext
  show min (rowIdx (ix2 e (0 : Fin 1))).toInt.toNat (32 - 1) = e.val / 128
  rw [rowIdx_apply, BitVec.toInt_eq_toNat_of_lt (by rw [BitVec.toNat_ofNat]; omega), BitVec.toNat_ofNat]
  have : e.val / 128 % 2 ^ 32 = e.val / 128 := Nat.mod_eq_of_lt (by omega)
  rw [this, Int.toNat_natCast]
  omega

/-! ## The dequantized weight and the result, at the ideal values -/

/-- The dequantized weight at input channel a, output channel j: each word converted to a float is its signed value;
    both gathers read the group's row; the zero point plus one does not wrap. -/
theorem weight_apply (qw : IVec S512x4096 32) (qz : IVec S32x512 32) (sc : FVec Ideal S32x4096 .f32) (a j : Fin 4096) :
    weight (F := Ideal) qw qz sc (ix2 a j) = W qw qz sc a j := by
  unfold weight W
  rw [mulf_apply, subf_apply, sitofp_apply, sitofp_apply, fieldsW_apply,
    Cert.LibScatterGather.gather_rows_apply _ rfl rfl rfl rfl rfl rfl rfl _ _ a j (by decide),
    Cert.LibScatterGather.gather_rows_apply _ rfl rfl rfl rfl rfl rfl rfl _ _ a j (by decide),
    clampRow, zeroPts_apply]
  show (toR (wField qw a j) - toR (IntOp.addi (zField qz (grp a) j) 1#32)) * sc (ix2 (grp a) j) = _
  rw [zField, toR_field_succ]

/-- The reference's composed term is the specified array. -/
theorem refTerm_eq (x : FVec Ideal S8192x4096 .f32) (qw : IVec S512x4096 32) (qz : IVec S32x512 32)
    (sc : FVec Ideal S32x4096 .f32) (b : FVec Ideal S4096 .f32) :
    refTerm (F := Ideal) x qw qz sc b = out x qw qz sc b := by
  funext y
  obtain ⟨p, q, rfl⟩ : ∃ (p : Fin 8192) (q : Fin 4096), y = ix2 p q := ⟨y 0, y 1, eq_ix2 y⟩
  have hd : Host.dotGeneral dot_S8192x4096_S4096x4096_S8192x4096_1_0_0_1_n_n none x (weight qw qz sc)
      = Cert.LibPlainDot.matProd x (weight qw qz sc) :=
    Cert.LibPlainDot.dotGeneral_eq_matProd _ rfl rfl rfl rfl rfl rfl none .single x (weight qw qz sc)
  unfold refTerm
  rw [addf_apply, bias_apply, out_ix2, hd, Cert.LibPlainDot.matProd_ix2]
  congr 1
  exact Finset.sum_congr rfl fun a _ => by rw [weight_apply]

/-! ## The run, its result the specified array -/

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v47)
        = Cert.Dequant.out (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1).trans (refTerm_eq _ _ _ _ _), (h c).2⟩) (RefRun.run m ρ)

end Cert.ReferenceIdeal.RefValue

end
-- ==== Proof.lean ====
/-
  The kernel and its reference compute the same array over the extended reals.

  Both are a matrix product with a four-bit quantized weight: packed words hold eight four-bit fields; the weight's
  fields are unpacked along the rows, the zero points' along the columns; input channel a belongs to group a / 128;
  W[a, j] = (w[a, j] - (z[g(a), j] + 1)) * s[g(a), j] and out[p, q] = (sum over a < 4096 of x[p, a] * W[a, q]) + b[q].

  The reference forms W whole and takes one product. The kernel works tile by tile: for each 512 x 1024 output tile
  it walks the contraction axis in four steps of 1024, keeping the partial sum in an accumulator that starts at zero,
  and at the fourth step adds the bias and writes the tile. Its zero-point table is prepared before the region with
  the one added after the conversion to a float, where the reference adds it before: a field is at most 15, so the
  integer sum does not wrap and the two agree. At every entry both sides form the same products x[p, a] * W[a, q];
  they differ only in how the 4096-term sum is grouped, and addition of extended reals is associative and
  commutative, so no finiteness of the inputs is used. The kernel's idealized text is its own text read over the
  extended reals (no rewrite was applied), so the idealization claim has nothing to state.

  Frames: the kernel's two frames are the generated ones; the reference's is its run with the result dropped.
-/
import proofs.«417043_j86071144611916_3_alg».proof.Defs
import proofs.«417043_j86071144611916_3_alg».proof.Proof.Gen.Kernel
import proofs.«417043_j86071144611916_3_alg».proof.Proof.Gen.Kernel.Skeleton
import proofs.«417043_j86071144611916_3_alg».proof.Proof.Gen.Kernel.Launch
import proofs.«417043_j86071144611916_3_alg».proof.Proof.Gen.Kernel.Points
import proofs.«417043_j86071144611916_3_alg».proof.Proof.Gen.Kernel.Frame
import proofs.«417043_j86071144611916_3_alg».proof.Proof.Gen.KernelIdeal
import proofs.«417043_j86071144611916_3_alg».proof.Proof.Gen.KernelIdeal.Skeleton
import proofs.«417043_j86071144611916_3_alg».proof.Proof.Gen.KernelIdeal.Launch
import proofs.«417043_j86071144611916_3_alg».proof.Proof.Gen.KernelIdeal.Points
import proofs.«417043_j86071144611916_3_alg».proof.Proof.Gen.KernelIdeal.Frame
import proofs.«417043_j86071144611916_3_alg».proof.Proof.Gen.KernelIdeal.Value
import proofs.«417043_j86071144611916_3_alg».proof.Proof.Gen.ReferenceIdeal
import proofs.«417043_j86071144611916_3_alg».proof.Proof.Gen.Pre_finite_inputs
import proofs.«417043_j86071144611916_3_alg».proof.Proof.KerFinal
import proofs.«417043_j86071144611916_3_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run, the result dropped. -/
theorem frame_referenceIdeal : Cert.frame_ReferenceIdeal := fun m ρ _ =>
  (θ_run Cert.ReferenceIdeal.defs _ _).mono (fun _ h c => (h c).2) (Cert.ReferenceIdeal.RefValue.run m ρ)

/-- No operation of the kernel was rewritten for the ideal reading. -/
theorem preserves : Cert.preserves_Kernel_KernelIdeal := trivial

/-- From memories that agree on the five arguments both programs end with the result array at the same function of
    them: the kernel's tiles assembled, and the reference's one product. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
